-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x256 : Shape := ⟨2, ![100000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg0 : IVec S2x1600000 32) (main_v28 : IVec S_ 1) (main_v33 : IVec S_ 1) : IVec S_ 1 :=
  let main_v34 : IVec S_ 1 := andi main_v28 main_v33
  let main_v35 : IVec S1x1600000 32 := (extractStridedSlice S1x1600000 ![0, 0] · slices_S2x1600000_S1x1600000_0_0) main_arg0
  let main_v36 : IVec S1600000 32 := shapeCast S1600000 main_v35 shapeCasts_S1x1600000_S1600000
  let main_c_12 : IVec S_ 32 := constantI S_ 32 100000#32
  let main_v37 : IVec S1600000 32 := broadcastInDim S1600000 ![] bcast_S_S1600000 main_c_12
  let main_v38 : IVec S1600000 1 := cmpi .slt main_v36 main_v37
  let main_c_13 : IVec S_ 1 := constantI S_ 1 1#1
  let main_v39 : IVec S_ 1 := (fun x v => Host.reduce IntOp.andi x v reducesTo_S1600000_S_d0 h_S_) main_v38 main_c_13
  let main_v40 : IVec S_ 1 := andi main_v34 main_v39
  main_v40

def fn_part1 {F : FTy → Type} [FloatOps F] (main_arg0 : IVec S2x1600000 32) (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S1x1600000 32 := (extractStridedSlice S1x1600000 ![0, 0] · slices_S2x1600000_S1x1600000_0_0) main_arg0
  let main_v30 : IVec S1600000 32 := shapeCast S1600000 main_v29 shapeCasts_S1x1600000_S1600000
  let main_c_10 : IVec S_ 32 := constantI S_ 32 4294867296#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_arg0 main_v28 main_v33

def fn {F : FTy → Type} [FloatOps F] (main_arg0 : IVec S2x1600000 32) (main_arg1 : FVec F S1600000 .f32) (main_arg2 : FVec F S100000x256 .f32) (main_arg3 : FVec F S256x128 .f32) (main_arg4 : FVec F S128 .f32) (main_arg5 : FVec F S128x1 .f32) (main_arg6 : FVec F S1 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_v13 main_v16
-- ==== Kernel.lean ====
abbrev S2x1600000 : Shape := ⟨2, ![2, 1600000]⟩
abbrev S1600000 : Shape := ⟨1, ![1600000]⟩
abbrev S100000x256 : Shape := ⟨2, ![100000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1x1 : Shape := ⟨2, ![1, 1]⟩
abbrev S1700000x128 : Shape := ⟨2, ![1700000, 128]⟩
abbrev S1x128 : Shape := ⟨2, ![1, 128]⟩
abbrev S100000x1 : Shape := ⟨2, ![100000, 1]⟩
abbrev S4000x1 : Shape := ⟨2, ![4000, 1]⟩

abbrev nBuf : Space → Nat
  | .hbm => 115
  | .vmem => 20
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x256, .f32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1, .i32⟩
  | .hbm, ⟨60, _⟩ => ⟨S_, .i32⟩
  | .hbm, ⟨61, _⟩ => ⟨S1700000x1, .i32⟩
  | .hbm, ⟨62, _⟩ => ⟨S1700000x1, .i1⟩
  | .hbm, ⟨63, _⟩ => ⟨S1x1, .i32⟩
  | .hbm, ⟨64, _⟩ => ⟨S1700000x1, .i32⟩
  | .hbm, ⟨65, _⟩ => ⟨S1700000x1, .i1⟩
  | .hbm, ⟨66, _⟩ => ⟨S1700000x1, .i1⟩
  | .hbm, ⟨67, _⟩ => ⟨S_, .i1⟩
  | .hbm, ⟨68, _⟩ => ⟨S1700000, .i1⟩
  | .hbm, ⟨69, _⟩ => ⟨S1700000x128, .f32⟩
  | .hbm, ⟨70, _⟩ => ⟨S1700000x128, .i1⟩
  | .hbm, ⟨71, _⟩ => ⟨S_, .f32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x1, .f32⟩
  | .hbm, ⟨83, _⟩ => ⟨S1700000x1, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1, .i32⟩
  | .hbm, ⟨93, _⟩ => ⟨S_, .i32⟩
  | .hbm, ⟨94, _⟩ => ⟨S1700000x1, .i32⟩
  | .hbm, ⟨95, _⟩ => ⟨S1700000x1, .i1⟩
  | .hbm, ⟨96, _⟩ => ⟨S1x1, .i32⟩
  | .hbm, ⟨97, _⟩ => ⟨S1700000x1, .i32⟩
  | .hbm, ⟨98, _⟩ => ⟨S1700000x1, .i1⟩
  | .hbm, ⟨99, _⟩ => ⟨S1700000x1, .i1⟩
  | .hbm, ⟨100, _⟩ => ⟨S_, .i1⟩
  | .hbm, ⟨101, _⟩ => ⟨S1700000, .i1⟩
  | .hbm, ⟨102, _⟩ => ⟨S1700000x1, .f32⟩
  | .hbm, ⟨103, _⟩ => ⟨S1700000x1, .i1⟩
  | .hbm, ⟨104, _⟩ => ⟨S_, .f32⟩
  | .hbm, ⟨105, _⟩ => ⟨S1700000x1, .f32⟩
  | .hbm, ⟨106, _⟩ => ⟨S1700000x1, .f32⟩
  | .hbm, ⟨107, _⟩ => ⟨S1700000x1, .f32⟩
  | .hbm, ⟨108, _⟩ => ⟨S_, .f32⟩
  | .hbm, ⟨109, _⟩ => ⟨S100000x1, .f32⟩
  | .hbm, ⟨110, _⟩ => ⟨S1700000x1, .i32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S4000x1, .f32⟩
  | .local _ .vmem, ⟨17, _⟩ => ⟨S1x1, .f32⟩
  | .local _ .vmem, ⟨18, _⟩ => ⟨S4000x1, .f32⟩
  | .local _ .vmem, ⟨19, _⟩ => ⟨S4000x1, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v44 : Ref sig .tc := ⟨.hbm, 106, rfl⟩
abbrev main_v45 : Ref sig .tc := ⟨.hbm, 107, rfl⟩
abbrev main_cst_7 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  shapeCasts_S1_S1x1 : S1.ShapeCasts S1x1
  shapeCasts_S4000x1_S4000x1 : S4000x1.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x1_S4000x1_1_0_0_1_n_n_wf : DotDims.WF S4000x128 S128x1 S4000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S100000x1.size a
  hwx3_0 : ∀ i : grid3.Coords, EltTy.bits .f32 = 32 ∨ (Rect.block (s := S100000x1) S4000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg2) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x256 : Shape := ⟨2, ![100000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x128 : Shape := ⟨2, ![100000, 128]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S2x1600000, .i32⟩
  | 1 => ⟨S1600000, .f32⟩
  | 2 => ⟨S100000x256, .f32⟩
  | 3 => ⟨S256x128, .f32⟩
  | 4 => ⟨S128, .f32⟩
  | 5 => ⟨S128x1, .f32⟩
  | 6 => ⟨S1, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x128, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x1, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S1700000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x1, .f32⟩
  | 115 => ⟨S1700000x1, .f32⟩
  | 116 => ⟨S_, .f32⟩
  | 117 => ⟨S100000x1, .f32⟩
  | 118 => ⟨S1700000x1, .i32⟩
  | 119 => ⟨S100000x1, .f32⟩
  | 120 => ⟨S1x1, .f32⟩
  | 121 => ⟨S100000x1, .f32⟩
  | 122 => ⟨S100000x1, .f32⟩
  | 123 => ⟨S100000x1, .f32⟩
  | 124 => ⟨S100000x1, .f32⟩
  | 125 => ⟨S_, .f32⟩
  | 126 => ⟨S100000x1, .f32⟩
  | 127 => ⟨S100000x1, .f32⟩
  | _ => ⟨S2x1600000, .i32⟩

abbrev hbmTy0_1 (i : Nat) : BufTy := match i % 128 with
  | 0 => ⟨S_, .f32⟩
  | 1 => ⟨S100000x1, .f32⟩
  | 2 => ⟨S100000x1, .f32⟩
  | 3 => ⟨S100000, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_cst_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KSpec.lean ====
/-
  The kernel program's host-side index arithmetic, named. From the [2, E] edge table: the source row and the target row, each
  extended by the N self-loops 0 … N-1; an index wrapped the NumPy way (a negative index counts from the end); the wrapped
  index as an [E', 1] column of start indices; the test "the wrapped index lies in [0, N-1]"; and the TAKE of rows of a table
  h at those indices that fills with a NaN pattern where the test fails. Where every index lies in [-N, N) the test never
  fails and the take is the plain gather (module Take).
-/
import proofs.«431462_j19842748907975_1_alg».proof.KernelIdeal
import proofs.«431462_j19842748907975_1_alg».proof.Proof.Gen.KernelIdeal
import Idealize.ShloMosaic.PureOps.Ideal

noncomputable section

namespace Cert.KSpec

open Cert.KernelIdeal Cert.KernelIdeal.Facts₀ Idealize.ShloMosaic

variable {F : FTy → Type} [FloatOps F]

/-- Row r of the edge table with the self-loops appended: E entries of the table, then 0 … N-1. -/
def edgeRow (r : Fin 2) (a0 : IVec S2x1600000 32) : IVec S1700000 32 :=
  match r with
  | ⟨0, _⟩ => concatenate S1700000 0 [⟨S1600000, shapeCast _ (extractStridedSlice S1x1600000 ![0, 0] a0 slices_S2x1600000_S1x1600000_0_0) shapeCasts_S1x1600000_S1600000⟩, ⟨S100000, iotaInDim S100000 32 0⟩] concatenates_S1600000_S100000_S1700000_d0
  | ⟨1, _⟩ => concatenate S1700000 0 [⟨S1600000, shapeCast _ (extractStridedSlice S1x1600000 ![1, 0] a0 slices_S2x1600000_S1x1600000_1_0) shapeCasts_S1x1600000_S1600000⟩, ⟨S100000, iotaInDim S100000 32 0⟩] concatenates_S1600000_S100000_S1700000_d0

/-- The source nodes (row 0) and the target nodes (row 1). -/
abbrev rowK (a0 : IVec S2x1600000 32) : IVec S1700000 32 := edgeRow 0 a0
abbrev colK (a0 : IVec S2x1600000 32) : IVec S1700000 32 := edgeRow 1 a0

/-- An index wrapped the NumPy way: i + N where i is negative, else i. -/
def wrapIdx (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- A vector of indices as an [E', 1] column of start indices. -/
def colIdx (i : IVec S1700000 32) : IVec S1700000x1 32 := broadcastInDim S1700000x1 ![0] bcast_S1700000_S1700000x1_0 i

/-- Per edge: the wrapped index lies in [0, N-1]. -/
def inRange (i : IVec S1700000 32) : IVec S1700000 1 :=
  Host.reduce IntOp.andi
    (andi (cmpi .sge (colIdx (wrapIdx i)) (broadcastInDim S1700000x1 ![] bcast_S_S1700000x1 (constantI S_ 32 0#32)))
      (cmpi .sle (colIdx (wrapIdx i)) (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- Rows of an [N, 128] table taken at the wrapped indices, a NaN pattern where the index is out of range. -/
def take128 (x : FVec F S100000x128 .f32) (i : IVec S1700000 32) : FVec F S1700000x128 .f32 :=
  select (broadcastInDim S1700000x128 ![0] bcast_S1700000_S1700000x128_0 (inRange i))
    (Host.gather gather_S100000x128_S1700000x1_S1700000x128_1_0_n_n_0_1_1128 x (colIdx (wrapIdx i)))
    (broadcastInDim S1700000x128 ![] bcast_S_S1700000x128 (constant S_ .f32 0x7FC00000#32))

/-- Rows of an [N, 1] table taken likewise. -/
def take1 (x : FVec F S100000x1 .f32) (i : IVec S1700000 32) : FVec F S1700000x1 .f32 :=
  select (broadcastInDim S1700000x1 ![0] bcast_S1700000_S1700000x1_0 (inRange i))
    (Host.gather gather_S100000x1_S1700000x1_S1700000x1_1_0_n_n_0_1_11 x (colIdx (wrapIdx i)))
    (broadcastInDim S1700000x1 ![] bcast_S_S1700000x1 (constant S_ .f32 0x7FC00000#32))

/-- The plain gathers the takes become where no index is out of range. -/
def gather128 (x : FVec F S100000x128 .f32) (i : IVec S1700000 32) : FVec F S1700000x128 .f32 :=
  Host.gather gather_S100000x128_S1700000x1_S1700000x128_1_0_n_n_0_1_1128 x (colIdx (wrapIdx i))
def gather1 (x : FVec F S100000x1 .f32) (i : IVec S1700000 32) : FVec F S1700000x1 .f32 :=
  Host.gather gather_S100000x1_S1700000x1_S1700000x1_1_0_n_n_0_1_11 x (colIdx (wrapIdx i))

/-- Every entry of an index vector lies in [-N, N): NumPy's valid range for an axis of extent N = 100000. -/
def InRange (i : IVec S1700000 32) : Prop := ∀ e : S1700000.Idx, -100000 ≤ (i e).toInt ∧ (i e).toInt < 100000

end Cert.KSpec

end
-- ==== Proof.KSpec2.lean ====
/-
  The kernel program's host-side float arithmetic, named, in the kernel program's own vocabulary: the edge weights with the
  self-loops' ones appended, the weighted in-degree, its inverse square root where positive, the symmetric normalisation
  norm[e] = dinv[row[e]] · ew[e] · dinv[col[e]], and the scatter of the messages norm[e] · g[e, :] into their target nodes.
  These are the same operations the reference applies (module KREq).
-/
import proofs.«431462_j19842748907975_1_alg».proof.Proof.KSpec

noncomputable section

namespace Cert.KSpec

open Cert.KernelIdeal Cert.KernelIdeal.Facts₀ Idealize.ShloMosaic

variable {F : FTy → Type} [FloatOps F]

/-- The edge weights, then N ones for the self-loops. -/
def ewK (a1 : FVec F S1600000 .f32) : FVec F S1700000 .f32 :=
  concatenate S1700000 0 [⟨S1600000, a1⟩, ⟨S100000, broadcastInDim S100000 ![] bcast_S_S100000 (constant S_ .f32 0x3F800000#32)⟩] concatenates_S1600000_S100000_S1700000_d0

/-- A vector of values as an [E', 1] column. -/
def fcolK (v : FVec F S1700000 .f32) : FVec F S1700000x1 .f32 := broadcastInDim S1700000x1 ![0] bcast_S1700000_S1700000x1_0 v

/-- The weighted in-degree. -/
def degK (a0 : IVec S2x1600000 32) (a1 : FVec F S1600000 .f32) : FVec F S100000 .f32 :=
  Host.scatterAdd scatter_S100000_S1700000x1_S1700000_n_0_0_1 (broadcastInDim S100000 ![] bcast_S_S100000 (constant S_ .f32 0x00000000#32)) (colIdx (colK a0)) (ewK a1)

/-- deg^(-1/2) where the degree is positive, else 0. -/
def dinvK (a0 : IVec S2x1600000 32) (a1 : FVec F S1600000 .f32) : FVec F S100000 .f32 :=
  select (cmpf .ogt (degK a0 a1) (broadcastInDim S100000 ![] bcast_S_S100000 (constant S_ .f32 0x00000000#32))) (Host.rsqrt (degK a0 a1))
    (broadcastInDim S100000 ![] bcast_S_S100000 (id (constant S_ .f32 0x00000000#32)))

/-- dinv[row] · ew · dinv[col]. -/
def normK (a0 : IVec S2x1600000 32) (a1 : FVec F S1600000 .f32) : FVec F S1700000 .f32 :=
  mulf (mulf (Host.gather gather_S100000_S1700000x1_S1700000_n_0_n_n_0_1_1 (dinvK a0 a1) (colIdx (wrapIdx (rowK a0)))) (ewK a1))
    (Host.gather gather_S100000_S1700000x1_S1700000_n_0_n_n_0_1_1 (dinvK a0 a1) (colIdx (wrapIdx (colK a0))))

/-- The messages norm[e] · g[e, :] summed into their target nodes, for messages of 128 columns and of one. -/
def scatter128K (cl : IVec S1700000 32) (nrm : FVec F S1700000 .f32) (g : FVec F S1700000x128 .f32) : FVec F S100000x128 .f32 :=
  Host.scatterAdd scatter_S100000x128_S1700000x1_S1700000x128_1_0_0_1 (broadcastInDim S100000x128 ![] bcast_S_S100000x128 (constant S_ .f32 0x00000000#32)) (colIdx cl)
    (mulf (broadcastInDim S1700000x128 ![0, 1] bcast_S1700000x1_S1700000x128_0_1 (fcolK nrm)) g)
def scatter1K (cl : IVec S1700000 32) (nrm : FVec F S1700000 .f32) (g : FVec F S1700000x1 .f32) : FVec F S100000x1 .f32 :=
  Host.scatterAdd scatter_S100000x1_S1700000x1_S1700000x1_1_0_0_1 (broadcastInDim S100000x1 ![] bcast_S_S100000x1 (constant S_ .f32 0x00000000#32)) (colIdx cl)
    (mulf (fcolK nrm) g)

end Cert.KSpec

end
-- ==== Proof.ChainA.lean ====
/-
  The first stretch of host operations, read: when the first kernel region is entered, the source and target rows, the
  normalisation and the five float arguments hold the named functions of the launch arrays. The values computed without a
  called function are read directly; the called select (the inverse square root where the degree is positive) and the
  normalisation's last products are read one stretch at a time, from whatever the stretch is entered with.
-/
import proofs.«431462_j19842748907975_1_alg».proof.Proof.Gen.KernelIdeal.Frame
import proofs.«431462_j19842748907975_1_alg».proof.Proof.KSpec2
import Idealize.ShloMosaic.Lib.StableHlo.Run
import Idealize.ShloMosaic.PureOps.Ideal

set_option maxRecDepth 16384

noncomputable section

namespace Cert.KernelIdeal.ChainA

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Read directly from the launch memory -/

set_option maxHeartbeats 16000000 in
/-- The source nodes with the self-loops. -/
theorem W3_row (c : Dev nD) : W3 m ρ c (Proc.devRef .tc main_v3) = Cert.KSpec.rowK (m ((c.tc : Thread nD τ).loc main_arg0)) := by
  dsimp only [W3, W2, W1, W0]
  after_results_simp
  all_goals (try simp only [cast_cast, cast_eq])
  all_goals (try rfl)

set_option maxHeartbeats 16000000 in
/-- The target nodes with the self-loops. -/
theorem W3_col (c : Dev nD) : W3 m ρ c (Proc.devRef .tc main_v6) = Cert.KSpec.colK (m ((c.tc : Thread nD τ).loc main_arg0)) := by
  dsimp only [W3, W2, W1, W0]
  after_results_simp
  all_goals (try simp only [cast_cast, cast_eq])
  all_goals (try rfl)

set_option maxHeartbeats 16000000 in
/-- Argument 2 is as launched. -/
theorem W3_arg2 (c : Dev nD) : W3 m ρ c (Proc.devRef .tc main_arg2) = (m ((c.tc : Thread nD τ).loc main_arg2)) := by
  dsimp only [W3, W2, W1, W0]
  after_results_simp
  all_goals (try simp only [cast_cast, cast_eq])
  all_goals (try rfl)

set_option maxHeartbeats 16000000 in
/-- Argument 3 is as launched. -/
theorem W3_arg3 (c : Dev nD) : W3 m ρ c (Proc.devRef .tc main_arg3) = (m ((c.tc : Thread nD τ).loc main_arg3)) := by
  dsimp only [W3, W2, W1, W0]
  after_results_simp
  all_goals (try simp only [cast_cast, cast_eq])
  all_goals (try rfl)

set_option maxHeartbeats 16000000 in
/-- Argument 4 is as launched. -/
theorem W3_arg4 (c : Dev nD) : W3 m ρ c (Proc.devRef .tc main_arg4) = (m ((c.tc : Thread nD τ).loc main_arg4)) := by
  dsimp only [W3, W2, W1, W0]
  after_results_simp
  all_goals (try simp only [cast_cast, cast_eq])
  all_goals (try rfl)

set_option maxHeartbeats 16000000 in
/-- Argument 5 is as launched. -/
theorem W3_arg5 (c : Dev nD) : W3 m ρ c (Proc.devRef .tc main_arg5) = (m ((c.tc : Thread nD τ).loc main_arg5)) := by
  dsimp only [W3, W2, W1, W0]
  after_results_simp
  all_goals (try simp only [cast_cast, cast_eq])
  all_goals (try rfl)

set_option maxHeartbeats 16000000 in
/-- Argument 6 is as launched. -/
theorem W3_arg6 (c : Dev nD) : W3 m ρ c (Proc.devRef .tc main_arg6) = (m ((c.tc : Thread nD τ).loc main_arg6)) := by
  dsimp only [W3, W2, W1, W0]
  after_results_simp
  all_goals (try simp only [cast_cast, cast_eq])
  all_goals (try rfl)

set_option maxHeartbeats 16000000 in
/-- The source nodes, one stretch earlier. -/
theorem W2_row (c : Dev nD) : W2 m ρ c (Proc.devRef .tc main_v3) = Cert.KSpec.rowK (m ((c.tc : Thread nD τ).loc main_arg0)) := by
  dsimp only [W2, W1, W0]
  after_results_simp
  all_goals (try simp only [cast_cast, cast_eq])
  all_goals (try rfl)

set_option maxHeartbeats 16000000 in
/-- The target nodes, one stretch earlier. -/
theorem W2_col (c : Dev nD) : W2 m ρ c (Proc.devRef .tc main_v6) = Cert.KSpec.colK (m ((c.tc : Thread nD τ).loc main_arg0)) := by
  dsimp only [W2, W1, W0]
  after_results_simp
  all_goals (try simp only [cast_cast, cast_eq])
  all_goals (try rfl)

set_option maxHeartbeats 16000000 in
/-- The weights with the self-loops' ones. -/
theorem W2_ew (c : Dev nD) : W2 m ρ c (Proc.devRef .tc main_v8) = Cert.KSpec.ewK (F := Ideal) (m ((c.tc : Thread nD τ).loc main_arg1)) := by
  dsimp only [W2, W1, W0]
  after_results_simp
  all_goals (try simp only [cast_cast, cast_eq])
  all_goals (try rfl)

set_option maxHeartbeats 16000000 in
/-- Where the degree is positive. -/
theorem W1_pos (c : Dev nD) : W1 m ρ c (Proc.devRef .tc main_v13) = cmpf .ogt (Cert.KSpec.degK (F := Ideal) (m ((c.tc : Thread nD τ).loc main_arg0)) (m ((c.tc : Thread nD τ).loc main_arg1))) (broadcastInDim S100000 ![] Facts₀.bcast_S_S100000 (constant S_ .f32 0x00000000#32)) := by
  dsimp only [W1, W0]
  after_results_simp
  all_goals (try simp only [cast_cast, cast_eq])
  all_goals (try rfl)

set_option maxHeartbeats 16000000 in
/-- The degree's inverse square root, everywhere. -/
theorem W1_rsq (c : Dev nD) : W1 m ρ c (Proc.devRef .tc main_v14) = Host.rsqrt (Cert.KSpec.degK (F := Ideal) (m ((c.tc : Thread nD τ).loc main_arg0)) (m ((c.tc : Thread nD τ).loc main_arg1))) := by
  dsimp only [W1, W0]
  after_results_simp
  all_goals (try simp only [cast_cast, cast_eq])
  all_goals (try rfl)

set_option maxHeartbeats 16000000 in
/-- The zero the select falls back to. -/
theorem W1_zero (c : Dev nD) : W1 m ρ c (Proc.devRef .tc main_cst_2) = constant (F := Ideal) S_ .f32 0x00000000#32 := by
  dsimp only [W1, W0]
  after_results_simp
  all_goals (try simp only [cast_cast, cast_eq])
  all_goals (try rfl)

/-! ## One stretch at a time, from whatever it is entered with -/

variable (W : Valuation τ sig (Elt Ideal))

set_option maxHeartbeats 4000000 in
/-- The called select: its first branch where the mask holds, else the scalar broadcast. -/
theorem where_eval : StableHlo.after (hostOps0_1 (F := Ideal)) W (Proc.devRef .tc main_v15)
    = select (W (Proc.devRef .tc main_v13)) (W (Proc.devRef .tc main_v14))
        (broadcastInDim S100000 ![] Facts₀.bcast_S_S100000 (id (W (Proc.devRef .tc main_cst_2)))) := by
  after_results_simp
  all_goals (try simp only [cast_cast, cast_eq])
  all_goals (try rfl)

/-- The normalisation from the inverse square root d, the source and target rows and the weights:
    d[row] · w · d[col], the rows wrapped the NumPy way. -/
def normFrom (d : FVec Ideal S100000 .f32) (r cl : IVec S1700000 32) (w : FVec Ideal S1700000 .f32) : FVec Ideal S1700000 .f32 :=
  mulf (mulf (Host.gather gather_S100000_S1700000x1_S1700000_n_0_n_n_0_1_1 d (Cert.KSpec.colIdx (Cert.KSpec.wrapIdx r))) w)
    (Host.gather gather_S100000_S1700000x1_S1700000_n_0_n_n_0_1_1 d (Cert.KSpec.colIdx (Cert.KSpec.wrapIdx cl)))

set_option maxHeartbeats 16000000 in
/-- The last stretch before the first region leaves the normalisation of what it is entered with. -/
theorem norm_eval : StableHlo.after (hostOps0_2 (F := Ideal)) W (Proc.devRef .tc main_v31)
    = normFrom (W (Proc.devRef .tc main_v15)) (W (Proc.devRef .tc main_v3)) (W (Proc.devRef .tc main_v6)) (W (Proc.devRef .tc main_v8)) := by
  after_results_simp
  all_goals (try simp only [cast_cast, cast_eq])
  all_goals (try rfl)

/-! ## Composed -/

/-- deg^(-1/2) where the degree is positive, else 0. -/
theorem W2_dinv (c : Dev nD) : W2 m ρ c (Proc.devRef .tc main_v15) = Cert.KSpec.dinvK (F := Ideal) (m ((c.tc : Thread nD τ).loc main_arg0)) (m ((c.tc : Thread nD τ).loc main_arg1)) := by
  show StableHlo.after (hostOps0_1 (F := Ideal)) (W1 m ρ c) (Proc.devRef .tc main_v15) = _
  rw [where_eval, W1_pos, W1_rsq, W1_zero]
  rfl

/-- The symmetric normalisation dinv[row] · ew · dinv[col]. -/
theorem W3_norm (c : Dev nD) : W3 m ρ c (Proc.devRef .tc main_v31) = Cert.KSpec.normK (F := Ideal) (m ((c.tc : Thread nD τ).loc main_arg0)) (m ((c.tc : Thread nD τ).loc main_arg1)) := by
  show StableHlo.after (hostOps0_2 (F := Ideal)) (W2 m ρ c) (Proc.devRef .tc main_v31) = _
  rw [norm_eval, W2_dinv, W2_row, W2_col, W2_ew]
  rfl

end Cert.KernelIdeal.ChainA

end
-- ==== Proof.TakeEval128.lean ====
/-
  The called take, read: from whatever contents the stretch is entered with, its result is the guarded take `take128` of the
  table and the index vector it is called on. The function's 23 operations are read six short runs at a time (the fold of a
  list is the fold of its tail after the fold of its head): the sign test and the index plus N; the wrap select and the
  column of start indices; the two range compares and their conjunction; the conjunction over the one-element axis; the
  gather and the row mask; the fill and the final select.
-/
import proofs.«431462_j19842748907975_1_alg».proof.Proof.Gen.KernelIdeal.Frame
import proofs.«431462_j19842748907975_1_alg».proof.Proof.KSpec2
import Idealize.ShloMosaic.Lib.StableHlo.Run
import Idealize.ShloMosaic.PureOps.Ideal

set_option maxRecDepth 16384

noncomputable section

namespace Cert.KernelIdeal.TakeEval128

open Cert.KernelIdeal Cert.KernelIdeal.Gen
open Idealize.ShloMosaic Idealize.ShloMosaic.TcCoe Idealize.SL.Sem Idealize.ShloMosaic.StableHlo

/-! ## The fold of a list, cut -/

theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op ops ih => exact ih (op.result W)

/-! ## The take's pieces, each over vectors of the literal shapes -/

/-- i < 0, signed. -/
def negMask (i : IVec S1700000 32) : IVec S1700000 1 :=
  cmpi .slt i (broadcastInDim S1700000 ![] Facts₀.bcast_S_S1700000 (constantI S_ 32 0#32))
/-- i + N. -/
def plusN (i : IVec S1700000 32) : IVec S1700000 32 :=
  addi i (broadcastInDim S1700000 ![] Facts₀.bcast_S_S1700000 (constantI S_ 32 100000#32))
/-- The wrapped index as a column of start indices. -/
def wrapCol (mk : IVec S1700000 1) (p i : IVec S1700000 32) : IVec S1700000x1 32 :=
  broadcastInDim S1700000x1 ![0] Facts₀.bcast_S1700000_S1700000x1_0 (select mk p i)
/-- 0 ≤ j ≤ N - 1, signed, entry by entry of the column. -/
def rangeMask (j : IVec S1700000x1 32) : IVec S1700000x1 1 :=
  andi (cmpi .sge j (broadcastInDim S1700000x1 ![] Facts₀.bcast_S_S1700000x1 (constantI S_ 32 0#32)))
    (cmpi .sle j (broadcastInDim S1700000x1 ![0, 1] Facts₀.bcast_S1x1_S1700000x1_0_1 (broadcastInDim S1x1 ![1] Facts₀.bcast_S1_S1x1_1 (constantI S1 32 99999#32))))
/-- The conjunction over the column's one-element axis. -/
def allAnd (mk : IVec S1700000x1 1) : IVec S1700000 1 :=
  Host.reduce IntOp.andi mk (constantI S_ 1 1#1) Facts₀.reducesTo_S1700000x1_S1700000_d1 Facts₀.h_S_
/-- The per-edge test laid along the rows. -/
def rowMask (r : IVec S1700000 1) : IVec S1700000x128 1 := broadcastInDim S1700000x128 ![0] Facts₀.bcast_S1700000_S1700000x128_0 r
/-- The table's rows at the start indices. -/
def rowsAt (x : FVec Ideal S100000x128 .f32) (j : IVec S1700000x1 32) : FVec Ideal S1700000x128 .f32 := Host.gather gather_S100000x128_S1700000x1_S1700000x128_1_0_n_n_0_1_1128 x j
/-- The rows where the test holds, a NaN pattern elsewhere. -/
def fill (mk : IVec S1700000x128 1) (x : FVec Ideal S1700000x128 .f32) : FVec Ideal S1700000x128 .f32 :=
  select mk x (broadcastInDim S1700000x128 ![] Facts₀.bcast_S_S1700000x128 (constant S_ .f32 0x7FC00000#32))

/-- The guarded take is these pieces composed. -/
theorem take_eq (x : FVec Ideal S100000x128 .f32) (i : IVec S1700000 32) :
    Cert.KSpec.take128 (F := Ideal) x i
      = fill (rowMask (allAnd (rangeMask (wrapCol (negMask i) (plusN i) i)))) (rowsAt x (wrapCol (negMask i) (plusN i) i)) := rfl

/-! ## The function's operations in six runs

Each operation of a called function moves its operands and its result between the tensor type it is stated at and its
buffer's declared type; the two are the same type, so each such move is the identity, and a move back after a move forth
cancels. -/

abbrev opsA {F : FTy → Type} [FloatOps F] : List (HloOp τ sig (Elt F)) := (hostOps1_1 (F := F)).take 6
abbrev opsB {F : FTy → Type} [FloatOps F] : List (HloOp τ sig (Elt F)) := ((hostOps1_1 (F := F)).drop 6).take 2
abbrev opsC {F : FTy → Type} [FloatOps F] : List (HloOp τ sig (Elt F)) := ((hostOps1_1 (F := F)).drop 8).take 8
abbrev opsD1 {F : FTy → Type} [FloatOps F] : List (HloOp τ sig (Elt F)) := ((hostOps1_1 (F := F)).drop 16).take 2
abbrev opsD2 {F : FTy → Type} [FloatOps F] : List (HloOp τ sig (Elt F)) := ((hostOps1_1 (F := F)).drop 18).take 2
abbrev opsE {F : FTy → Type} [FloatOps F] : List (HloOp τ sig (Elt F)) := (hostOps1_1 (F := F)).drop 20

/-- The six runs, in order, are the function's operations. -/
theorem ops_split {F : FTy → Type} [FloatOps F] :
    (hostOps1_1 (F := F)) = opsA ++ (opsB ++ (opsC ++ (opsD1 ++ (opsD2 ++ opsE)))) := by
  simp only [opsA, opsB, opsC, opsD1, opsD2, opsE, hostOps1_1, List.drop_succ_cons, List.drop_zero, List.take_succ_cons, List.take_zero,
    List.cons_append, List.nil_append]

variable (W : Valuation τ sig (Elt Ideal))

/-! ### First run: the sign test and the index plus N -/

set_option maxHeartbeats 4000000 in
/-- The sign test of the index vector. -/
theorem A_neg : StableHlo.after (opsA (F := Ideal)) W (Proc.devRef .tc main_call1_v1) = negMask (W (Proc.devRef .tc main_v3)) := by
  simp only [opsA, hostOps1_1, List.drop_succ_cons, List.drop_zero, List.take_succ_cons, List.take_zero]
  after_results_simp
  all_goals (try simp only [cast_cast, cast_eq])
  all_goals (try rfl)

set_option maxHeartbeats 4000000 in
/-- The index vector plus N. -/
theorem A_plus : StableHlo.after (opsA (F := Ideal)) W (Proc.devRef .tc main_call1_v3) = plusN (W (Proc.devRef .tc main_v3)) := by
  simp only [opsA, hostOps1_1, List.drop_succ_cons, List.drop_zero, List.take_succ_cons, List.take_zero]
  after_results_simp
  all_goals (try simp only [cast_cast, cast_eq])
  all_goals (try rfl)

set_option maxHeartbeats 4000000 in
/-- The index vector passes. -/
theorem A_idx : StableHlo.after (opsA (F := Ideal)) W (Proc.devRef .tc main_v3) = (W (Proc.devRef .tc main_v3)) := by
  simp only [opsA, hostOps1_1, List.drop_succ_cons, List.drop_zero, List.take_succ_cons, List.take_zero]
  after_results_simp
  all_goals (try simp only [cast_cast, cast_eq])
  all_goals (try rfl)

set_option maxHeartbeats 4000000 in
/-- The table passes. -/
theorem A_tab : StableHlo.after (opsA (F := Ideal)) W (Proc.devRef .tc main_v32) = (W (Proc.devRef .tc main_v32)) := by
  simp only [opsA, hostOps1_1, List.drop_succ_cons, List.drop_zero, List.take_succ_cons, List.take_zero]
  after_results_simp
  all_goals (try simp only [cast_cast, cast_eq])
  all_goals (try rfl)

/-! ### Second run: the wrap select and the column -/

set_option maxHeartbeats 4000000 in
/-- The wrapped index as a column. -/
theorem B_col : StableHlo.after (opsB (F := Ideal)) W (Proc.devRef .tc main_call1_v5) = wrapCol (W (Proc.devRef .tc main_call1_v1)) (W (Proc.devRef .tc main_call1_v3)) (W (Proc.devRef .tc main_v3)) := by
  simp only [opsB, hostOps1_1, List.drop_succ_cons, List.drop_zero, List.take_succ_cons, List.take_zero]
  after_results_simp
  all_goals (try simp only [cast_cast, cast_eq])
  all_goals (try rfl)

set_option maxHeartbeats 4000000 in
/-- The table passes. -/
theorem B_tab : StableHlo.after (opsB (F := Ideal)) W (Proc.devRef .tc main_v32) = (W (Proc.devRef .tc main_v32)) := by
  simp only [opsB, hostOps1_1, List.drop_succ_cons, List.drop_zero, List.take_succ_cons, List.take_zero]
  after_results_simp
  all_goals (try simp only [cast_cast, cast_eq])
  all_goals (try rfl)

/-! ### Third run: the range test -/

set_option maxHeartbeats 8000000 in
/-- The range test of the column. -/
theorem C_mask : StableHlo.after (opsC (F := Ideal)) W (Proc.devRef .tc main_call1_v11) = rangeMask (W (Proc.devRef .tc main_call1_v5)) := by
  simp only [opsC, hostOps1_1, List.drop_succ_cons, List.drop_zero, List.take_succ_cons, List.take_zero]
  after_results_simp
  all_goals (try simp only [cast_cast, cast_eq])
  all_goals (try rfl)

set_option maxHeartbeats 8000000 in
/-- The column passes. -/
theorem C_col : StableHlo.after (opsC (F := Ideal)) W (Proc.devRef .tc main_call1_v5) = (W (Proc.devRef .tc main_call1_v5)) := by
  simp only [opsC, hostOps1_1, List.drop_succ_cons, List.drop_zero, List.take_succ_cons, List.take_zero]
  after_results_simp
  all_goals (try simp only [cast_cast, cast_eq])
  all_goals (try rfl)

set_option maxHeartbeats 8000000 in
/-- The table passes. -/
theorem C_tab : StableHlo.after (opsC (F := Ideal)) W (Proc.devRef .tc main_v32) = (W (Proc.devRef .tc main_v32)) := by
  simp only [opsC, hostOps1_1, List.drop_succ_cons, List.drop_zero, List.take_succ_cons, List.take_zero]
  after_results_simp
  all_goals (try simp only [cast_cast, cast_eq])
  all_goals (try rfl)

/-! ### Fourth run: the conjunction over the one-element axis -/

set_option maxHeartbeats 4000000 in
/-- The per-edge test: the conjunction over the column's one-element axis. -/
theorem D1_all : StableHlo.after (opsD1 (F := Ideal)) W (Proc.devRef .tc main_call1_v12) = allAnd (W (Proc.devRef .tc main_call1_v11)) := by
  simp only [opsD1, hostOps1_1, List.drop_succ_cons, List.drop_zero, List.take_succ_cons, List.take_zero]
  after_results_simp
  all_goals (try simp only [cast_cast, cast_eq])
  all_goals (try rfl)

set_option maxHeartbeats 4000000 in
/-- The column passes. -/
theorem D1_col : StableHlo.after (opsD1 (F := Ideal)) W (Proc.devRef .tc main_call1_v5) = (W (Proc.devRef .tc main_call1_v5)) := by
  simp only [opsD1, hostOps1_1, List.drop_succ_cons, List.drop_zero, List.take_succ_cons, List.take_zero]
  after_results_simp
  all_goals (try simp only [cast_cast, cast_eq])
  all_goals (try rfl)

set_option maxHeartbeats 4000000 in
/-- The table passes. -/
theorem D1_tab : StableHlo.after (opsD1 (F := Ideal)) W (Proc.devRef .tc main_v32) = (W (Proc.devRef .tc main_v32)) := by
  simp only [opsD1, hostOps1_1, List.drop_succ_cons, List.drop_zero, List.take_succ_cons, List.take_zero]
  after_results_simp
  all_goals (try simp only [cast_cast, cast_eq])
  all_goals (try rfl)

/-! ### Fifth run: the gather and the row mask -/

set_option maxHeartbeats 4000000 in
/-- The per-edge test laid along the rows. -/
theorem D2_mask : StableHlo.after (opsD2 (F := Ideal)) W (Proc.devRef .tc main_call1_v14) = rowMask (W (Proc.devRef .tc main_call1_v12)) := by
  simp only [opsD2, hostOps1_1, List.drop_succ_cons, List.drop_zero, List.take_succ_cons, List.take_zero]
  after_results_simp
  all_goals (try simp only [cast_cast, cast_eq])
  all_goals (try rfl)

set_option maxHeartbeats 4000000 in
/-- The table's rows at the column's indices. -/
theorem D2_rows : StableHlo.after (opsD2 (F := Ideal)) W (Proc.devRef .tc main_call1_v13) = rowsAt (W (Proc.devRef .tc main_v32)) (W (Proc.devRef .tc main_call1_v5)) := by
  simp only [opsD2, hostOps1_1, List.drop_succ_cons, List.drop_zero, List.take_succ_cons, List.take_zero]
  after_results_simp
  all_goals (try simp only [cast_cast, cast_eq])
  all_goals (try rfl)

/-! ### Sixth run: the fill and the select -/

set_option maxHeartbeats 4000000 in
/-- The rows where the test holds, the fill elsewhere. -/
theorem E_out : StableHlo.after (opsE (F := Ideal)) W (Proc.devRef .tc main_v34) = fill (W (Proc.devRef .tc main_call1_v14)) (W (Proc.devRef .tc main_call1_v13)) := by
  simp only [opsE, hostOps1_1, List.drop_succ_cons, List.drop_zero, List.take_succ_cons, List.take_zero]
  after_results_simp
  all_goals (try simp only [cast_cast, cast_eq])
  all_goals (try rfl)

/-! ## Composed -/

/-- From whatever the stretch is entered with, the called take leaves the guarded take of the table and the index
    vector. -/
theorem eval : StableHlo.after (hostOps1_1 (F := Ideal)) W (Proc.devRef .tc main_v34)
    = Cert.KSpec.take128 (F := Ideal) (W (Proc.devRef .tc main_v32)) (W (Proc.devRef .tc main_v3)) := by
  rw [ops_split, after_append, after_append, after_append, after_append, after_append]
  rw [E_out, D2_mask, D2_rows, D1_all, D1_col, D1_tab, C_mask, C_col, C_tab, B_col, B_tab, A_neg, A_plus, A_idx, A_tab, take_eq]

end Cert.KernelIdeal.TakeEval128

end
-- ==== Proof.ChainB.lean ====
/-
  The stretch between the first and the second kernel region, read: when the second region is entered its aggregate input
  holds the messages norm[e] · take(h, row)[e, :] summed into their target nodes, h the first region's result; its bias
  input holds the bias as one row; the rows, the normalisation and the later arguments are as the first region left them.
  The normalisation as a column and the pass-throughs are read directly; the called take is read by module TakeEval128;
  the scatter-add is read from whatever its stretch is entered with; the aggregate is these composed.
-/
import proofs.«431462_j19842748907975_1_alg».proof.Proof.Gen.KernelIdeal.Frame
import proofs.«431462_j19842748907975_1_alg».proof.Proof.KSpec2
import proofs.«431462_j19842748907975_1_alg».proof.Proof.TakeEval128
import Idealize.ShloMosaic.Lib.StableHlo.Run
import Idealize.ShloMosaic.PureOps.Ideal

set_option maxRecDepth 16384

noncomputable section

namespace Cert.KernelIdeal.ChainB

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The messages: the normalisation column laid along the rows, times the taken rows. -/
def msgs (nc : FVec Ideal S1700000x1 .f32) (g : FVec Ideal S1700000x128 .f32) : FVec Ideal S1700000x128 .f32 :=
  mulf (broadcastInDim S1700000x128 ![0, 1] Facts₀.bcast_S1700000x1_S1700000x128_0_1 nc) g
/-- Messages summed into their target nodes. -/
def scat (cl : IVec S1700000 32) (ms : FVec Ideal S1700000x128 .f32) : FVec Ideal S100000x128 .f32 :=
  Host.scatterAdd scatter_S100000x128_S1700000x1_S1700000x128_1_0_0_1
    (broadcastInDim S100000x128 ![] Facts₀.bcast_S_S100000x128 (constant S_ .f32 0x00000000#32)) (Cert.KSpec.colIdx cl) ms

theorem scatter_eq (cl : IVec S1700000 32) (nrm : FVec Ideal S1700000 .f32) (g : FVec Ideal S1700000x128 .f32) :
    Cert.KSpec.scatter128K (F := Ideal) cl nrm g = scat cl (msgs (Cert.KSpec.fcolK nrm) g) := rfl

/-! ## Read directly -/

set_option maxHeartbeats 16000000 in
/-- The normalisation as a column, past the called take. -/
theorem W6_ncol (c : Dev nD) : W6 m ρ c (Proc.devRef .tc main_v33) = Cert.KSpec.fcolK (F := Ideal) (W4 m ρ c (Proc.devRef .tc main_v31)) := by
  dsimp only [W6, W5]
  after_results_simp
  all_goals (try simp only [cast_cast, cast_eq])
  all_goals (try rfl)

set_option maxHeartbeats 16000000 in
/-- The target nodes, past the called take. -/
theorem W6_col (c : Dev nD) : W6 m ρ c (Proc.devRef .tc main_v6) = W4 m ρ c (Proc.devRef .tc main_v6) := by
  dsimp only [W6, W5]
  after_results_simp
  all_goals (try simp only [cast_cast, cast_eq])
  all_goals (try rfl)

set_option maxHeartbeats 16000000 in
/-- The first region's result, past the column broadcast. -/
theorem W5_tab (c : Dev nD) : W5 m ρ c (Proc.devRef .tc main_v32) = W4 m ρ c (Proc.devRef .tc main_v32) := by
  dsimp only [W5]
  after_results_simp
  all_goals (try simp only [cast_cast, cast_eq])
  all_goals (try rfl)

set_option maxHeartbeats 16000000 in
/-- The source nodes, past the column broadcast. -/
theorem W5_row (c : Dev nD) : W5 m ρ c (Proc.devRef .tc main_v3) = W4 m ρ c (Proc.devRef .tc main_v3) := by
  dsimp only [W5]
  after_results_simp
  all_goals (try simp only [cast_cast, cast_eq])
  all_goals (try rfl)

set_option maxHeartbeats 16000000 in
/-- The first layer's bias as one row. -/
theorem W7_bias (c : Dev nD) : W7 m ρ c (Proc.devRef .tc main_v40) = shapeCast S1x128 (W4 m ρ c (Proc.devRef .tc main_arg4)) Facts₀.shapeCasts_S128_S1x128 := by
  dsimp only [W7, W6, W5]
  after_results_simp
  all_goals (try simp only [cast_cast, cast_eq])
  all_goals (try rfl)

set_option maxHeartbeats 16000000 in
/-- main_v3 passes the whole stretch. -/
theorem W7_v3 (c : Dev nD) : W7 m ρ c (Proc.devRef .tc main_v3) = W4 m ρ c (Proc.devRef .tc main_v3) := by
  dsimp only [W7, W6, W5]
  after_results_simp
  all_goals (try simp only [cast_cast, cast_eq])
  all_goals (try rfl)

set_option maxHeartbeats 16000000 in
/-- main_v6 passes the whole stretch. -/
theorem W7_v6 (c : Dev nD) : W7 m ρ c (Proc.devRef .tc main_v6) = W4 m ρ c (Proc.devRef .tc main_v6) := by
  dsimp only [W7, W6, W5]
  after_results_simp
  all_goals (try simp only [cast_cast, cast_eq])
  all_goals (try rfl)

set_option maxHeartbeats 16000000 in
/-- main_v31 passes the whole stretch. -/
theorem W7_v31 (c : Dev nD) : W7 m ρ c (Proc.devRef .tc main_v31) = W4 m ρ c (Proc.devRef .tc main_v31) := by
  dsimp only [W7, W6, W5]
  after_results_simp
  all_goals (try simp only [cast_cast, cast_eq])
  all_goals (try rfl)

set_option maxHeartbeats 16000000 in
/-- main_arg5 passes the whole stretch. -/
theorem W7_arg5 (c : Dev nD) : W7 m ρ c (Proc.devRef .tc main_arg5) = W4 m ρ c (Proc.devRef .tc main_arg5) := by
  dsimp only [W7, W6, W5]
  after_results_simp
  all_goals (try simp only [cast_cast, cast_eq])
  all_goals (try rfl)

set_option maxHeartbeats 16000000 in
/-- main_arg6 passes the whole stretch. -/
theorem W7_arg6 (c : Dev nD) : W7 m ρ c (Proc.devRef .tc main_arg6) = W4 m ρ c (Proc.devRef .tc main_arg6) := by
  dsimp only [W7, W6, W5]
  after_results_simp
  all_goals (try simp only [cast_cast, cast_eq])
  all_goals (try rfl)

/-! ## The called take, and the scatter-add from whatever its stretch is entered with -/

/-- The taken rows of the first region's result. -/
theorem W6_take (c : Dev nD) : W6 m ρ c (Proc.devRef .tc main_v34)
    = Cert.KSpec.take128 (F := Ideal) (W5 m ρ c (Proc.devRef .tc main_v32)) (W5 m ρ c (Proc.devRef .tc main_v3)) :=
  Cert.KernelIdeal.TakeEval128.eval (W5 m ρ c)

variable (W : Valuation τ sig (Elt Ideal))

set_option maxHeartbeats 16000000 in
theorem scatter_eval : StableHlo.after (hostOps1_2 (F := Ideal)) W (Proc.devRef .tc main_v39)
    = scat (W (Proc.devRef .tc main_v6)) (msgs (W (Proc.devRef .tc main_v33)) (W (Proc.devRef .tc main_v34))) := by
  after_results_simp
  all_goals (try simp only [cast_cast, cast_eq])
  all_goals (try rfl)

/-! ## Composed -/

/-- The first layer's aggregate, over what the first region left. -/
theorem W7_agg (c : Dev nD) : W7 m ρ c (Proc.devRef .tc main_v39)
    = Cert.KSpec.scatter128K (F := Ideal) (W4 m ρ c (Proc.devRef .tc main_v6)) (W4 m ρ c (Proc.devRef .tc main_v31))
        (Cert.KSpec.take128 (F := Ideal) (W4 m ρ c (Proc.devRef .tc main_v32)) (W4 m ρ c (Proc.devRef .tc main_v3))) := by
  show StableHlo.after (hostOps1_2 (F := Ideal)) (W6 m ρ c) (Proc.devRef .tc main_v39) = _
  rw [scatter_eval, W6_col, W6_ncol, W6_take, W5_tab, W5_row, scatter_eq]

end Cert.KernelIdeal.ChainB

end
-- ==== Proof.ChainC.lean ====
/-
  The stretch between the third and the fourth kernel region, and the last reshape, read: when the fourth region is entered
  its aggregate input holds the messages norm[e] · take(h₂, row)[e] summed into their target nodes, h₂ the third region's
  result; its bias input holds the bias as a [1, 1] array; the program's result is the fourth region's result as a vector.
  The called take is read by module TakeEval1; the scatter-add from whatever its stretch is entered with.
-/
import proofs.«431462_j19842748907975_1_alg».proof.Proof.Gen.KernelIdeal.Frame
import proofs.«431462_j19842748907975_1_alg».proof.Proof.KSpec2
import proofs.«431462_j19842748907975_1_alg».proof.Proof.TakeEval1
import Idealize.ShloMosaic.Lib.StableHlo.Run
import Idealize.ShloMosaic.PureOps.Ideal

set_option maxRecDepth 16384

noncomputable section

namespace Cert.KernelIdeal.ChainC

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Messages summed into their target nodes. -/
def scat (cl : IVec S1700000 32) (ms : FVec Ideal S1700000x1 .f32) : FVec Ideal S100000x1 .f32 :=
  Host.scatterAdd scatter_S100000x1_S1700000x1_S1700000x1_1_0_0_1
    (broadcastInDim S100000x1 ![] Facts₀.bcast_S_S100000x1 (constant S_ .f32 0x00000000#32)) (Cert.KSpec.colIdx cl) ms
/-- The messages: the normalisation column times the taken entries. -/
def msgs (nc g : FVec Ideal S1700000x1 .f32) : FVec Ideal S1700000x1 .f32 := mulf nc g

theorem scatter_eq (cl : IVec S1700000 32) (nrm : FVec Ideal S1700000 .f32) (g : FVec Ideal S1700000x1 .f32) :
    Cert.KSpec.scatter1K (F := Ideal) cl nrm g = scat cl (msgs (Cert.KSpec.fcolK nrm) g) := rfl

/-! ## Read directly -/

set_option maxHeartbeats 16000000 in
/-- The normalisation as a column, past the called take. -/
theorem W11_ncol (c : Dev nD) : W11 m ρ c (Proc.devRef .tc main_v43) = Cert.KSpec.fcolK (F := Ideal) (W9 m ρ c (Proc.devRef .tc main_v31)) := by
  dsimp only [W11, W10]
  after_results_simp
  all_goals (try simp only [cast_cast, cast_eq])
  all_goals (try rfl)

set_option maxHeartbeats 16000000 in
/-- The target nodes, past the called take. -/
theorem W11_col (c : Dev nD) : W11 m ρ c (Proc.devRef .tc main_v6) = W9 m ρ c (Proc.devRef .tc main_v6) := by
  dsimp only [W11, W10]
  after_results_simp
  all_goals (try simp only [cast_cast, cast_eq])
  all_goals (try rfl)

set_option maxHeartbeats 16000000 in
/-- The third region's result, past the column broadcast. -/
theorem W10_tab (c : Dev nD) : W10 m ρ c (Proc.devRef .tc main_v42) = W9 m ρ c (Proc.devRef .tc main_v42) := by
  dsimp only [W10]
  after_results_simp
  all_goals (try simp only [cast_cast, cast_eq])
  all_goals (try rfl)

set_option maxHeartbeats 16000000 in
/-- The source nodes, past the column broadcast. -/
theorem W10_row (c : Dev nD) : W10 m ρ c (Proc.devRef .tc main_v3) = W9 m ρ c (Proc.devRef .tc main_v3) := by
  dsimp only [W10]
  after_results_simp
  all_goals (try simp only [cast_cast, cast_eq])
  all_goals (try rfl)

set_option maxHeartbeats 16000000 in
/-- The second layer's bias as a [1, 1] array. -/
theorem W12_bias (c : Dev nD) : W12 m ρ c (Proc.devRef .tc main_v49) = shapeCast S1x1 (W9 m ρ c (Proc.devRef .tc main_arg6)) Facts₀.shapeCasts_S1_S1x1 := by
  dsimp only [W12, W11, W10]
  after_results_simp
  all_goals (try simp only [cast_cast, cast_eq])
  all_goals (try rfl)

set_option maxHeartbeats 16000000 in
/-- The result: the fourth region's [N, 1] result as a vector. -/
theorem W14_out (c : Dev nD) : W14 m ρ c (Proc.devRef .tc main_v51) = shapeCast S100000 (W13 m ρ c (Proc.devRef .tc main_v50)) Facts₀.shapeCasts_S100000x1_S100000 := by
  dsimp only [W14]
  after_results_simp
  all_goals (try simp only [cast_cast, cast_eq])
  all_goals (try rfl)

/-! ## The called take, and the scatter-add from whatever its stretch is entered with -/

/-- The taken entries of the third region's result. -/
theorem W11_take (c : Dev nD) : W11 m ρ c (Proc.devRef .tc main_v44)
    = Cert.KSpec.take1 (F := Ideal) (W10 m ρ c (Proc.devRef .tc main_v42)) (W10 m ρ c (Proc.devRef .tc main_v3)) :=
  Cert.KernelIdeal.TakeEval1.eval (W10 m ρ c)

variable (W : Valuation τ sig (Elt Ideal))

set_option maxHeartbeats 16000000 in
theorem scatter_eval : StableHlo.after (hostOps3_2 (F := Ideal)) W (Proc.devRef .tc main_v48)
    = scat (W (Proc.devRef .tc main_v6)) (msgs (W (Proc.devRef .tc main_v43)) (W (Proc.devRef .tc main_v44))) := by
  after_results_simp
  all_goals (try simp only [cast_cast, cast_eq])
  all_goals (try rfl)

/-! ## Composed -/

/-- The second layer's aggregate, over what the third region left. -/
theorem W12_agg (c : Dev nD) : W12 m ρ c (Proc.devRef .tc main_v48)
    = Cert.KSpec.scatter1K (F := Ideal) (W9 m ρ c (Proc.devRef .tc main_v6)) (W9 m ρ c (Proc.devRef .tc main_v31))
        (Cert.KSpec.take1 (F := Ideal) (W9 m ρ c (Proc.devRef .tc main_v42)) (W9 m ρ c (Proc.devRef .tc main_v3))) := by
  show StableHlo.after (hostOps3_2 (F := Ideal)) (W11 m ρ c) (Proc.devRef .tc main_v48) = _
  rw [scatter_eval, W11_col, W11_ncol, W11_take, W10_tab, W10_row, scatter_eq]

end Cert.KernelIdeal.ChainC

end
-- ==== Proof.RefStages.lean ====
/-
  The four dense stages of the reference, each as one whole-array function at the extended reals, spelt as the reference
  program spells them: the two matrix products h = x · W, the bias-and-relu max(agg + b, 0) with the bias laid along the
  rows, and the bias-and-sigmoid 1 / (1 + exp(-(agg + b))). Each tiled kernel region computes one of these (modules
  Region0 … Region3).
-/
import proofs.«431462_j19842748907975_1_alg».proof.ReferenceIdeal
import proofs.«431462_j19842748907975_1_alg».proof.Proof.Gen.ReferenceIdeal
import Idealize.ShloMosaic.PureOps.Ideal

noncomputable section

namespace Cert.RefStages

open Cert.ReferenceIdeal Cert.ReferenceIdeal.Facts₀ Idealize.ShloMosaic

variable {F : FTy → Type} [FloatOps F]

/-- x · W1: [N, 256] by [256, 128]. -/
def mm1 (x : FVec F S100000x256 .f32) (w : FVec F S256x128 .f32) : FVec F S100000x128 .f32 :=
  Host.dotGeneral dot_S100000x256_S256x128_S100000x128_1_0_0_1_n_n none x w

/-- max(agg + b1, 0), the bias a row laid down every row. -/
def biasRelu (agg : FVec F S100000x128 .f32) (b : FVec F S128 .f32) : FVec F S100000x128 .f32 :=
  maximumf (addf agg (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- h · W2: [N, 128] by [128, 1]. -/
def mm2 (h : FVec F S100000x128 .f32) (w : FVec F S128x1 .f32) : FVec F S100000x1 .f32 :=
  Host.dotGeneral dot_S100000x128_S128x1_S100000x1_1_0_0_1_n_n none h w

/-- 1 / (1 + exp(-(agg + b2))). -/
def biasSigmoid (agg : FVec F S100000x1 .f32) (b : FVec F S1 .f32) : FVec F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf agg (broadcastInDim S100000x1 ![0, 1] bcast_S1x1_S100000x1_0_1 (broadcastInDim S1x1 ![1] bcast_S1_S1x1_1 b))))))

end Cert.RefStages

end
-- ==== Proof.Region0.lean ====
/-
  Region 0 (the first matrix product), as a whole-array value at the extended reals. The grid's 25 points each write the
  block of 4000 rows  x[4000 t … 4000 t + 3999, :] · W  of the result; the blocks tile the [100000, 128] array, so after the
  last point the array is x · W, the reference's matrix product: at Ideal the casts to bf16 are the identity and a product
  into a zero accumulator is the plain sum over the contracted axis.
-/
import proofs.«431462_j19842748907975_1_alg».proof.Proof.Gen.KernelIdeal.Frame
import proofs.«431462_j19842748907975_1_alg».proof.Proof.RefStages
import proofs.«431462_j19842748907975_1_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered: any
variable (V : (c : Dev nD) → (b : Ref sig .tc) → Buf (Elt Ideal) ((c : Thread nD τ).loc b))

/-! ## One block's product at an index -/

theorem lhs_blk_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_blk_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_blk_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_blk_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The body's payload at row p, column q of its block: the casts to bf16 are the identity and the product into the zero
    accumulator is the sum over the 256 contracted entries. -/
theorem pay_apply (x0 : Vec Ideal S4000x256 .f32) (x1 : Vec Ideal S256x128 .f32) (p : Fin 4000) (q : Fin 128) :
    k0_pay1 (F := Ideal) x0 x1 (ix2 p q) = ∑ k : Fin 256, x0 (ix2 p k) * x1 (ix2 k q) := by
  unfold k0_pay1
  refine (Ideal.matmul_constant_zero_apply dot_S4000x256_S256x128_S4000x128_1_0_0_1_n_n none _ _ (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]
  rfl

/-- The reference's product at row r, column q. -/
theorem mm1_apply (X : FVec Ideal Cert.ReferenceIdeal.S100000x256 .f32) (W : FVec Ideal Cert.ReferenceIdeal.S256x128 .f32) (r : Fin 100000) (q : Fin 128) :
    Cert.RefStages.mm1 (F := Ideal) X W (ix2 r q) = ∑ k : Fin 256, X (ix2 r k) * W (ix2 k q) := by
  refine (Cert.ReferenceIdeal.Read.val_main_v9_apply X W (ix2 r q)).trans ?_
  refine Finset.sum_congr rfl fun k _ => ?_
  have el : Cert.ReferenceIdeal.Read.lidx_main_v9 (ix2 r q) k = ix2 r k := funext fun a => Fin.ext (by
    match a with
    | ⟨0, _⟩ => rfl
    | ⟨1, _⟩ => rfl)
  have er : Cert.ReferenceIdeal.Read.ridx_main_v9 (ix2 r q) k = ix2 k q := funext fun a => Fin.ext (by
    match a with
    | ⟨0, _⟩ => rfl
    | ⟨1, _⟩ => rfl)
  rw [el, er]

/-! ## The blocks as rows of the arrays -/

theorem hz : (![0, 0] : Fin 2 → Nat) = fun _ => 0 := funext fun a => by
  match a with
  | ⟨0, _⟩ => rfl
  | ⟨1, _⟩ => rfl

/-- The printed index maps over the grid: at point t the windows of x and of the result are at block (t, 0), the window
    of W at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two arrays the region reads, and their blocks at a point, each at its literal type. -/
abbrev xarr (c : Dev nD) : Vec Ideal S100000x256 .f32 := V c main_arg2
abbrev warr (c : Dev nD) : Vec Ideal S256x128 .f32 := V c main_arg3
abbrev xblk (c : Dev nD) (t : Fin cfg0.N) : Vec Ideal S4000x256 .f32 := iblk0 V c 0 t
abbrev wblk (c : Dev nD) (t : Fin cfg0.N) : Vec Ideal S256x128 .f32 := iblk0 V c 1 t

/-- Row p of point t's block of x is row 4000 t + p of x. -/
theorem xblk_apply (c : Dev nD) (t : Fin cfg0.N) (p : Fin 4000) (k : Fin 256) (r : Fin 100000)
    (hr : r.val = 4000 * t.val + p.val) : xblk V c t (ix2 p k) = xarr V c (ix2 r k) := by
  obtain ⟨e0, e1, -⟩ := idx_facts t
  show ((cfg0.win 0).blk t).view.read (Elt Ideal) (V c (Pipeline.arrRef spec0 0)) (ix2 p k) = _
  rw [View.read_apply]
  show xarr V c _ = xarr V c _
  refine congrArg (xarr V c) (funext fun a => Fin.ext ?_)
  match a with
  | ⟨0, _⟩ => show win0_0.index t (0 : Fin 2) * 4000 + 1 * p.val = r.val; rw [e0, hr]; omega
  | ⟨1, _⟩ => show win0_0.index t (1 : Fin 2) * 256 + 1 * k.val = k.val; rw [e1]; omega

/-- Every point's block of W is W. -/
theorem wblk_apply (c : Dev nD) (t : Fin cfg0.N) (k : Fin 256) (q : Fin 128) :
    wblk V c t (ix2 k q) = warr V c (ix2 k q) := by
  obtain ⟨-, -, e2, e3, -⟩ := idx_facts t
  show ((cfg0.win 1).blk t).view.read (Elt Ideal) (V c (Pipeline.arrRef spec0 1)) (ix2 k q) = _
  rw [View.read_apply]
  show warr V c _ = warr V c _
  refine congrArg (warr V c) (funext fun a => Fin.ext ?_)
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-! ## What a point writes back, and the whole array -/

/-- Point t writes back rows 4000 t … 4000 t + 3999 of x · W. -/
theorem flushed_eq (c : Dev nD) (t : Fin cfg0.N) :
    (dat0 (F := Ideal) V c).flushed 2 t
      = ((cfg0.win 2).blk t).view.read (Elt Ideal) (Cert.RefStages.mm1 (F := Ideal) (xarr V c) (warr V c)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x128) hz]
  funext j
  obtain ⟨p, q, rfl⟩ : ∃ (p : Fin 4000) (q : Fin 128), j = ix2 p q := ⟨j 0, j 1, eq_ix2 j⟩
  have hN : cfg0.N = 25 := N_0
  have ht : t.val < cfg0.N := t.isLt
  obtain ⟨-, -, -, -, e4, e5⟩ := idx_facts t
  obtain ⟨r, hr⟩ : ∃ r : Fin 100000, r.val = 4000 * t.val + p.val := ⟨⟨4000 * t.val + p.val, by omega⟩, rfl⟩
  have hi : ((cfg0.win 2).blk t).view.emb (ix2 p q) = (ix2 r q : S100000x128.Idx) := funext fun a => Fin.ext (by
    match a with
    | ⟨0, _⟩ => show win0_2.index t (0 : Fin 2) * 4000 + 1 * p.val = r.val; rw [e4, hr]; omega
    | ⟨1, _⟩ => show win0_2.index t (1 : Fin 2) * 128 + 1 * q.val = q.val; rw [e5]; omega)
  show k0_pay1 (F := Ideal) (xblk V c t) (wblk V c t) (ix2 p q)
    = Cert.RefStages.mm1 (F := Ideal) (xarr V c) (warr V c) (((cfg0.win 2).blk t).view.emb (ix2 p q))
  refine (pay_apply (xblk V c t) (wblk V c t) p q).trans ?_
  refine Eq.trans ?_ (congrArg (Cert.RefStages.mm1 (F := Ideal) (xarr V c) (warr V c)) hi.symm)
  refine Eq.trans ?_ (mm1_apply (xarr V c) (warr V c) r q).symm
  refine Finset.sum_congr rfl fun k _ => ?_
  rw [xblk_apply V c t p k r hr, wblk_apply V c t k q]

/-- An index of the result is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Row r of the result is in the block of point r / 4000: the 25 blocks of 4000 rows tile the 100000 rows. -/
theorem cover (i : S100000x128.Idx) :
    ∃ t : Fin cfg0.N, (cfg0.win 2).flush t = true ∧ i ∈ ((cfg0.win 2).blk t).view.set := by
  have hN : cfg0.N = 25 := N_0
  have h0 : (i 0).val < 100000 := (i 0).isLt
  have h1 : (i 1).val < 128 := (i 1).isLt
  obtain ⟨t, ht⟩ : ∃ t : Fin cfg0.N, t.val = (i 0).val / 4000 := ⟨⟨(i 0).val / 4000, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    rw [e4, ht]; omega
  | ⟨1, _⟩ =>
    show win0_2.index t (1 : Fin 2) * 128 ≤ (i 1).val ∧ (i 1).val < win0_2.index t (1 : Fin 2) * 128 + 128
    rw [e5]; omega

/-- After region 0 its result array is x · W1 of the arrays the region found. -/
theorem value (c : Dev nD) :
    (dat0 (F := Ideal) V c).arrAt 2 cfg0.N
      = Cert.RefStages.mm1 (F := Ideal) (V c main_arg2) (V c main_arg3) :=
  (dat0 (F := Ideal) V c).arrAt_eq_of_cover 2 (Cert.RefStages.mm1 (F := Ideal) (xarr V c) (warr V c))
    (fun t _ => flushed_eq V c t) cover

end Cert.KernelIdeal.Region0

end
-- ==== Proof.Region1.lean ====
/-
  Region 1 (bias and relu), as a whole-array value at the extended reals: each of the 25 points writes max(agg + b, 0) on its
  4000 rows, the bias row broadcast down the block; the blocks tile the [100000, 128] array. The region's bias window holds
  the bias reshaped to one row.
-/
import proofs.«431462_j19842748907975_1_alg».proof.Proof.Gen.KernelIdeal.Frame
import proofs.«431462_j19842748907975_1_alg».proof.Proof.RefStages
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

-- the TensorCore's buffer contents when the region is entered: any
variable (V : (c : Dev nD) → (b : Ref sig .tc) → Buf (Elt Ideal) ((c : Thread nD τ).loc b))

open Idealize.ShloMosaic.ValueIdx

theorem hz : (![0, 0] : Fin 2 → Nat) = fun _ => 0 := funext fun a => by
  match a with | ⟨0, _⟩ => rfl | ⟨1, _⟩ => rfl

/-- The body's value at row p, column q of its block: the maximum of zero and the block's entry plus the bias row's
    entry of that column. -/
theorem pay_apply (x0 : Vec Ideal S4000x128 .f32) (x1 : Vec Ideal S1x128 .f32) (p : Fin 4000) (q : Fin 128) :
    (k1_pay1 (F := Ideal) x0 x1) (ix2 p q)
      = max (x0 (ix2 p q) + x1 (ix2 (0 : Fin 1) q)) (Ideal.ofBits .f32 0x00000000#32) := by
  unfold k1_pay1
  rw [maximumf_apply, addf_apply, shapeCast_self, shapeCast_self,
    broadcastTo_apply x1 _ (ix2 p q) (ix2 (0 : Fin 1) q) (fun a => by
      match a with | ⟨0, _⟩ => rfl | ⟨1, _⟩ => rfl)]
  rfl

/-- The reference stage at row r, column q. -/
theorem biasRelu_apply (agg : FVec Ideal S100000x128 .f32) (b : FVec Ideal S128 .f32) (r : Fin 100000) (q : Fin 128) :
    Cert.RefStages.biasRelu (F := Ideal) agg b (ix2 r q)
      = max (agg (ix2 r q) + b (ix1 q)) (Ideal.ofBits .f32 0x00000000#32) := by
  unfold Cert.RefStages.biasRelu
  rw [maximumf_apply, addf_apply,
    broadcastInDim_apply ![0, 1] _ _ (ix2 r q) (ix2 (0 : Fin 1) q) (fun a => by
      match a with | ⟨0, _⟩ => rfl | ⟨1, _⟩ => rfl),
    broadcastInDim_apply ![1] _ b (ix2 (0 : Fin 1) q) (ix1 q) (fun a => by
      match a with | ⟨0, _⟩ => rfl)]
  rfl

/-- The windows' index maps at the grid's 25 points: the row-block windows sit at block (t, 0), the bias window at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The region's arrays and the blocks the body reads at point t, each at its literal type. -/
abbrev agg (c : Dev nD) : FVec Ideal S100000x128 .f32 := V c main_v39
abbrev brow (c : Dev nD) : FVec Ideal S1x128 .f32 := V c main_v40
abbrev xblk (c : Dev nD) (t : Fin cfg1.N) : Vec Ideal S4000x128 .f32 := iblk1 (F := Ideal) V c 0 t
abbrev bblk (c : Dev nD) (t : Fin cfg1.N) : Vec Ideal S1x128 .f32 := iblk1 (F := Ideal) V c 1 t

/-- Row p of the point-t block of the aggregate is its row 4000 t + p. -/
theorem xblk_apply (c : Dev nD) (t : Fin cfg1.N) (p : Fin 4000) (q : Fin 128) (r : Fin 100000)
    (hr : r.val = t.val * 4000 + p.val) : xblk V c t (ix2 p q) = agg V c (ix2 r q) := by
  obtain ⟨e0, e1, -⟩ := idx_facts t
  unfold xblk iblk1
  rw [View.read_apply]
  show V c main_v39 _ = V c main_v39 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * q.val = q.val; rw [e1]; omega

/-- The bias window's block, at every point, is the whole one-row array. -/
theorem bblk_apply (c : Dev nD) (t : Fin cfg1.N) (q : Fin 128) :
    bblk V c t (ix2 (0 : Fin 1) q) = brow V c (ix2 (0 : Fin 1) q) := by
  obtain ⟨-, -, e2, e3, -⟩ := idx_facts t
  unfold bblk iblk1
  rw [View.read_apply]
  show V c main_v40 _ = V c main_v40 _
  congr 1
  funext a
  apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point t writes back is block t of max(agg + b, 0). -/
theorem flushed_eq (c : Dev nD) (b : FVec Ideal S128 .f32)
    (hb : (V c main_v40 : FVec Ideal S1x128 .f32) = shapeCast S1x128 b Facts₀.shapeCasts_S128_S1x128) (t : Fin cfg1.N) :
    (dat1 (F := Ideal) V c).flushed 2 t
      = ((cfg1.win 2).blk t).view.read (Elt Ideal) (Cert.RefStages.biasRelu (F := Ideal) (V c main_v39) b) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  obtain ⟨-, -, -, -, e4, e5⟩ := idx_facts t
  refine funext fun (j : S4000x128.Idx) => ?_
  obtain ⟨p, q, rfl⟩ : ∃ (p : Fin 4000) (q : Fin 128), j = ix2 p q := ⟨j 0, j 1, eq_ix2 j⟩
  have ht : t.val < 25 := t.isLt
  have hr : t.val * 4000 + p.val < 100000 := by omega
  have hemb : ((cfg1.win 2).blk t).view.emb (ix2 p q) = ix2 (⟨t.val * 4000 + p.val, hr⟩ : Fin 100000) q := by
    funext a
    apply Fin.ext
    match a with
    | ⟨0, _⟩ => show win1_2.index t (0 : Fin 2) * 4000 + 1 * p.val = t.val * 4000 + p.val; rw [e4]; omega
    | ⟨1, _⟩ => show win1_2.index t (1 : Fin 2) * 128 + 1 * q.val = q.val; rw [e5]; omega
  show k1_pay1 (F := Ideal) (xblk V c t) (bblk V c t) (ix2 p q)
    = Cert.RefStages.biasRelu (F := Ideal) (agg V c) b (((cfg1.win 2).blk t).view.emb (ix2 p q))
  rw [hemb, biasRelu_apply, pay_apply, xblk_apply V c t p q ⟨t.val * 4000 + p.val, hr⟩ rfl, bblk_apply V c t q]
  show max (_ + (V c main_v40 : FVec Ideal S1x128 .f32) (ix2 (0 : Fin 1) q)) _ = _
  rw [hb, shapeCast_apply b _ (ix2 (0 : Fin 1) q) (ix1 q) (by
    rw [Shape.rowMajor_val_two, Shape.rowMajor_val_one]; show q.val = 0 * 128 + q.val; omega)]

/-- An index of the result array lies in point t's block iff, on each axis, it lies in the block's range. -/
theorem mem_blk (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v41).slice (win1_2.rect t)).set ↔ _
  rw [View.set_slice_whole, Rect.mem_set_unit]
  exact Iff.rfl

/-- Row r of the result lies in the block of point r / 4000, which is written back: the 25 blocks tile the array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 4000 < 25 := by omega
  obtain ⟨-, -, -, -, e4, e5⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 128 ≤ (i 1).val
      ∧ (i 1).val < win1_2.index ⟨(i 0).val / 4000, ht⟩ (1 : Fin 2) * 128 + 128
    rw [e5]; omega

/-- After region 1 its result array is max(agg + b, 0), where the bias window's array is b as one row. -/
theorem value (c : Dev nD) (b : FVec Ideal S128 .f32)
    (hb : (V c main_v40 : FVec Ideal S1x128 .f32) = shapeCast S1x128 b Facts₀.shapeCasts_S128_S1x128) :
    (dat1 (F := Ideal) V c).arrAt 2 cfg1.N
      = Cert.RefStages.biasRelu (F := Ideal) (V c main_v39) b :=
  (dat1 (F := Ideal) V c).arrAt_eq_of_cover 2 (Cert.RefStages.biasRelu (F := Ideal) (V c main_v39) b)
    (fun t _ => flushed_eq V c b hb t) cover

end Cert.KernelIdeal.Region1

end
-- ==== Proof.Region2.lean ====
/-
  Region 2 (the second matrix product), as a whole-array value at the extended reals: 25 blocks of 4000 rows of
  h · W2, h of 128 columns and W2 a single column; the blocks tile the [100000, 1] array.
-/
import proofs.«431462_j19842748907975_1_alg».proof.Proof.Gen.KernelIdeal.Frame
import proofs.«431462_j19842748907975_1_alg».proof.Proof.RefStages
import proofs.«431462_j19842748907975_1_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered: any
variable (V : (c : Dev nD) → (b : Ref sig .tc) → Buf (Elt Ideal) ((c : Thread nD τ).loc b))

/-! ## One block's product at an index -/

theorem lhs_blk_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_blk_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_blk_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_blk_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The body's payload at row p of its block (the one column q): the reshape to the same shape and the casts to bf16 are
    the identity, and the product into the zero accumulator is the sum over the 128 contracted entries. -/
theorem pay_apply (x0 : Vec Ideal S4000x128 .f32) (x1 : Vec Ideal S128x1 .f32) (p : Fin 4000) (q : Fin 1) :
    k2_pay1 (F := Ideal) x0 x1 (ix2 p q) = ∑ k : Fin 128, x0 (ix2 p k) * x1 (ix2 k q) := by
  unfold k2_pay1
  simp only [shapeCast_self]
  refine (Ideal.matmul_constant_zero_apply dot_S4000x128_S128x1_S4000x1_1_0_0_1_n_n none _ _ (ix2 p q)).trans ?_
  rw [← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p q) ((contrEquiv1 dot_S4000x128_S128x1_S4000x1_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x1_S4000x1_1_0_0_1_n_n.rhsIdx (ix2 p q) ((contrEquiv1 dot_S4000x128_S128x1_S4000x1_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-- The reference's product at row r (the one column q): the sum over the 128 contracted entries. -/
theorem mm2_apply (H : FVec Ideal Cert.ReferenceIdeal.S100000x128 .f32) (W : FVec Ideal Cert.ReferenceIdeal.S128x1 .f32) (r : Fin 100000) (q : Fin 1) :
    Cert.RefStages.mm2 (F := Ideal) H W (ix2 r q) = ∑ k : Fin 128, H (ix2 r k) * W (ix2 k q) := by
  unfold Cert.RefStages.mm2
  simp only [Host.dotGeneral]
  rw [Ideal.dotGeneral_apply, ← Equiv.sum_comp (contrEquiv1 Cert.ReferenceIdeal.dot_S100000x128_S128x1_S100000x1_1_0_0_1_n_n 128 rfl rfl).symm]
  refine Finset.sum_congr rfl fun k _ => ?_
  have hk := contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 r q) ((contrEquiv1 Cert.ReferenceIdeal.dot_S100000x128_S128x1_S100000x1_1_0_0_1_n_n 128 rfl rfl).symm k) = ix2 r k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S100000x128_S128x1_S100000x1_1_0_0_1_n_n.rhsIdx (ix2 r q) ((contrEquiv1 Cert.ReferenceIdeal.dot_S100000x128_S128x1_S100000x1_1_0_0_1_n_n 128 rfl rfl).symm k) = ix2 k q := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

/-! ## The blocks as rows of the arrays -/

theorem hz : (![0, 0] : Fin 2 → Nat) = fun _ => 0 := funext fun a => by
  match a with
  | ⟨0, _⟩ => rfl
  | ⟨1, _⟩ => rfl

/-- The printed index maps over the grid: at point t the windows of h and of the result are at block (t, 0), the window
    of W at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two arrays the region reads, and their blocks at a point, each at its literal type. -/
abbrev harr (c : Dev nD) : Vec Ideal S100000x128 .f32 := V c main_v41
abbrev warr (c : Dev nD) : Vec Ideal S128x1 .f32 := V c main_arg5
abbrev hblk (c : Dev nD) (t : Fin cfg2.N) : Vec Ideal S4000x128 .f32 := iblk2 V c 0 t
abbrev wblk (c : Dev nD) (t : Fin cfg2.N) : Vec Ideal S128x1 .f32 := iblk2 V c 1 t

/-- Row p of point t's block of h is row 4000 t + p of h. -/
theorem hblk_apply (c : Dev nD) (t : Fin cfg2.N) (p : Fin 4000) (k : Fin 128) (r : Fin 100000)
    (hr : r.val = 4000 * t.val + p.val) : hblk V c t (ix2 p k) = harr V c (ix2 r k) := by
  obtain ⟨e0, e1, -⟩ := idx_facts t
  show ((cfg2.win 0).blk t).view.read (Elt Ideal) (V c (Pipeline.arrRef spec2 0)) (ix2 p k) = _
  rw [View.read_apply]
  show harr V c _ = harr V c _
  refine congrArg (harr V c) (funext fun a => Fin.ext ?_)
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- Every point's block of W is W. -/
theorem wblk_apply (c : Dev nD) (t : Fin cfg2.N) (k : Fin 128) (q : Fin 1) :
    wblk V c t (ix2 k q) = warr V c (ix2 k q) := by
  obtain ⟨-, -, e2, e3, -⟩ := idx_facts t
  show ((cfg2.win 1).blk t).view.read (Elt Ideal) (V c (Pipeline.arrRef spec2 1)) (ix2 k q) = _
  rw [View.read_apply]
  show warr V c _ = warr V c _
  refine congrArg (warr V c) (funext fun a => Fin.ext ?_)
  match a with
  | ⟨0, _⟩ => show win2_1.index t (0 : Fin 2) * 128 + 1 * k.val = k.val; rw [e2]; omega
  | ⟨1, _⟩ => show win2_1.index t (1 : Fin 2) * 1 + 1 * q.val = q.val; rw [e3]; omega

/-! ## What a point writes back, and the whole array -/

/-- Point t writes back rows 4000 t … 4000 t + 3999 of h · W. -/
theorem flushed_eq (c : Dev nD) (t : Fin cfg2.N) :
    (dat2 (F := Ideal) V c).flushed 2 t
      = ((cfg2.win 2).blk t).view.read (Elt Ideal) (Cert.RefStages.mm2 (F := Ideal) (harr V c) (warr V c)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x1) hz]
  funext j
  obtain ⟨p, q, rfl⟩ : ∃ (p : Fin 4000) (q : Fin 1), j = ix2 p q := ⟨j 0, j 1, eq_ix2 j⟩
  have hN : cfg2.N = 25 := N_2
  have ht : t.val < cfg2.N := t.isLt
  obtain ⟨-, -, -, -, e4, e5⟩ := idx_facts t
  obtain ⟨r, hr⟩ : ∃ r : Fin 100000, r.val = 4000 * t.val + p.val := ⟨⟨4000 * t.val + p.val, by omega⟩, rfl⟩
  have hi : ((cfg2.win 2).blk t).view.emb (ix2 p q) = (ix2 r q : S100000x1.Idx) := funext fun a => Fin.ext (by
    match a with
    | ⟨0, _⟩ => show win2_2.index t (0 : Fin 2) * 4000 + 1 * p.val = r.val; rw [e4, hr]; omega
    | ⟨1, _⟩ => show win2_2.index t (1 : Fin 2) * 1 + 1 * q.val = q.val; rw [e5]; omega)
  show k2_pay1 (F := Ideal) (hblk V c t) (wblk V c t) (ix2 p q)
    = Cert.RefStages.mm2 (F := Ideal) (harr V c) (warr V c) (((cfg2.win 2).blk t).view.emb (ix2 p q))
  refine (pay_apply (hblk V c t) (wblk V c t) p q).trans ?_
  refine Eq.trans ?_ (congrArg (Cert.RefStages.mm2 (F := Ideal) (harr V c) (warr V c)) hi.symm)
  refine Eq.trans ?_ (mm2_apply (harr V c) (warr V c) r q).symm
  refine Finset.sum_congr rfl fun k _ => ?_
  rw [hblk_apply V c t p k r hr, wblk_apply V c t k q]

/-- An index of the result is in point t's block iff each coordinate is in the block's range on its axis. -/
theorem mem_blk (t : Fin cfg2.N) (i : S100000x1.Idx) :
    i ∈ ((cfg2.win 2).blk t).view.set ↔ ∀ a : Fin 2, win2_2.index t a * S4000x1.size a ≤ (i a).val ∧ (i a).val < win2_2.index t a * S4000x1.size a + S4000x1.size a := by
  show i ∈ ((View.whole main_v42).slice (win2_2.rect t)).set ↔ _
  rw [View.set_slice_whole, Rect.mem_set_unit]
  exact Iff.rfl

/-- Row r of the result is in the block of point r / 4000: the 25 blocks of 4000 rows tile the 100000 rows. -/
theorem cover (i : S100000x1.Idx) :
    ∃ t : Fin cfg2.N, (cfg2.win 2).flush t = true ∧ i ∈ ((cfg2.win 2).blk t).view.set := by
  have hN : cfg2.N = 25 := N_2
  have h0 : (i 0).val < 100000 := (i 0).isLt
  have h1 : (i 1).val < 1 := (i 1).isLt
  obtain ⟨t, ht⟩ : ∃ t : Fin cfg2.N, t.val = (i 0).val / 4000 := ⟨⟨(i 0).val / 4000, by omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 4000 ≤ (i 0).val ∧ (i 0).val < win2_2.index t (0 : Fin 2) * 4000 + 4000
    rw [e4, ht]; omega
  | ⟨1, _⟩ =>
    show win2_2.index t (1 : Fin 2) * 1 ≤ (i 1).val ∧ (i 1).val < win2_2.index t (1 : Fin 2) * 1 + 1
    rw [e5]; omega

/-- After region 2 its result array is h · W2 of the arrays the region found. -/
theorem value (c : Dev nD) :
    (dat2 (F := Ideal) V c).arrAt 2 cfg2.N
      = Cert.RefStages.mm2 (F := Ideal) (V c main_v41) (V c main_arg5) :=
  (dat2 (F := Ideal) V c).arrAt_eq_of_cover 2 (Cert.RefStages.mm2 (F := Ideal) (harr V c) (warr V c))
    (fun t _ => flushed_eq V c t) cover

end Cert.KernelIdeal.Region2

end
-- ==== Proof.Region3.lean ====
/-
  Region 3 (bias and sigmoid), as a whole-array value at the extended reals: each of the 25 points writes
  1 / (1 + exp(-(agg + b))) on its 4000 rows; the blocks tile the [100000, 1] array. At the extended reals the kernel's
  logistic IS that expression.
-/
import proofs.«431462_j19842748907975_1_alg».proof.Proof.Gen.KernelIdeal.Frame
import proofs.«431462_j19842748907975_1_alg».proof.Proof.RefStages
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)

-- the TensorCore's buffer contents when the region is entered: any
variable (V : (c : Dev nD) → (b : Ref sig .tc) → Buf (Elt Ideal) ((c : Thread nD τ).loc b))

open Idealize.ShloMosaic.ValueIdx

theorem hz : (![0, 0] : Fin 2 → Nat) = fun _ => 0 := funext fun a => by
  match a with | ⟨0, _⟩ => rfl | ⟨1, _⟩ => rfl

/-- The body's value at row p of its one-column block: the logistic function of the block's entry plus the bias. -/
theorem pay_apply (x0 : Vec Ideal S4000x1 .f32) (x1 : Vec Ideal S1x1 .f32) (p : Fin 4000) (q : Fin 1) :
    (k3_pay1 (F := Ideal) x0 x1) (ix2 p q)
      = Ideal.logistic (x0 (ix2 p q) + x1 (ix2 (0 : Fin 1) (0 : Fin 1))) := by
  unfold k3_pay1
  show Ideal.logistic (shapeCast S4000x1 x0 shapeCasts_S4000x1_S4000x1 (ix2 p q)
    + broadcastTo S4000x1 (shapeCast S1x1 x1 shapeCasts_S1x1_S1x1) broadcasts_S1x1_S4000x1 (ix2 p q)) = _
  rw [shapeCast_self, shapeCast_self,
    broadcastTo_apply x1 _ (ix2 p q) (ix2 (0 : Fin 1) (0 : Fin 1)) (fun a => by
      match a with | ⟨0, _⟩ => rfl | ⟨1, _⟩ => rfl)]

/-- The reference stage at row r: one over one plus the exponential of minus (agg + b), which at the extended reals is
    the logistic function of agg + b, the unit being the word of 1.0 on both sides. -/
theorem biasSigmoid_apply (agg : FVec Ideal S100000x1 .f32) (b : FVec Ideal S1 .f32) (r : Fin 100000) (q : Fin 1) :
    Cert.RefStages.biasSigmoid (F := Ideal) agg b (ix2 r q)
      = Ideal.div (Ideal.ofBits .f32 0x3F800000#32) ((Ideal.ofBits .f32 0x3F800000#32) + Ideal.exp (-(agg (ix2 r q) + b (ix1 (0 : Fin 1))))) := by
  unfold Cert.RefStages.biasSigmoid
  show Ideal.div (Ideal.ofBits .f32 0x3F800000#32) ((Ideal.ofBits .f32 0x3F800000#32) + Ideal.exp (-(agg (ix2 r q)
    + broadcastInDim Cert.ReferenceIdeal.S100000x1 ![0, 1] Cert.ReferenceIdeal.Facts₀.bcast_S1x1_S100000x1_0_1
        (broadcastInDim Cert.ReferenceIdeal.S1x1 ![1] Cert.ReferenceIdeal.Facts₀.bcast_S1_S1x1_1 b) (ix2 r q)))) = _
  rw [broadcastInDim_apply ![0, 1] _ _ (ix2 r q) (ix2 (0 : Fin 1) (0 : Fin 1)) (fun a => by
      match a with | ⟨0, _⟩ => rfl | ⟨1, _⟩ => rfl),
    broadcastInDim_apply ![1] _ b (ix2 (0 : Fin 1) (0 : Fin 1)) (ix1 (0 : Fin 1)) (fun a => by
      match a with | ⟨0, _⟩ => rfl)]

/-- The windows' index maps at the grid's 25 points: the row-block windows sit at block (t, 0), the bias window at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The region's arrays and the blocks the body reads at point t, each at its literal type. -/
abbrev agg (c : Dev nD) : FVec Ideal S100000x1 .f32 := V c main_v48
abbrev bone (c : Dev nD) : FVec Ideal S1x1 .f32 := V c main_v49
abbrev xblk (c : Dev nD) (t : Fin cfg3.N) : Vec Ideal S4000x1 .f32 := iblk3 (F := Ideal) V c 0 t
abbrev bblk (c : Dev nD) (t : Fin cfg3.N) : Vec Ideal S1x1 .f32 := iblk3 (F := Ideal) V c 1 t

/-- Row p of the point-t block of the aggregate is its row 4000 t + p. -/
theorem xblk_apply (c : Dev nD) (t : Fin cfg3.N) (p : Fin 4000) (q : Fin 1) (r : Fin 100000)
    (hr : r.val = t.val * 4000 + p.val) : xblk V c t (ix2 p q) = agg V c (ix2 r q) := by
  obtain ⟨e0, e1, -⟩ := idx_facts t
  unfold xblk iblk3
  rw [View.read_apply]
  show V c main_v48 _ = V c main_v48 _
  congr 1
  funext a
  apply Fin.ext
  match a with
  | ⟨0, _⟩ => show win3_0.index t (0 : Fin 2) * 4000 + 1 * p.val = r.val; rw [e0, hr]; omega
  | ⟨1, _⟩ => show win3_0.index t (1 : Fin 2) * 1 + 1 * q.val = q.val; rw [e1]; omega

/-- The bias window's block, at every point, is the whole one-entry array. -/
theorem bblk_apply (c : Dev nD) (t : Fin cfg3.N) :
    bblk V c t (ix2 (0 : Fin 1) (0 : Fin 1)) = bone V c (ix2 (0 : Fin 1) (0 : Fin 1)) := by
  obtain ⟨-, -, e2, e3, -⟩ := idx_facts t
  unfold bblk iblk3
  rw [View.read_apply]
  show V c main_v49 _ = V c main_v49 _
  congr 1
  funext a
  apply Fin.ext
  match a with
  | ⟨0, _⟩ => show win3_1.index t (0 : Fin 2) * 1 + 1 * 0 = 0; rw [e2]
  | ⟨1, _⟩ => show win3_1.index t (1 : Fin 2) * 1 + 1 * 0 = 0; rw [e3]

/-- What point t writes back is block t of the sigmoid of agg + b. -/
theorem flushed_eq (c : Dev nD) (b : FVec Ideal S1 .f32)
    (hb : (V c main_v49 : FVec Ideal S1x1 .f32) = shapeCast S1x1 b Facts₀.shapeCasts_S1_S1x1) (t : Fin cfg3.N) :
    (dat3 (F := Ideal) V c).flushed 2 t
      = ((cfg3.win 2).blk t).view.read (Elt Ideal) (Cert.RefStages.biasSigmoid (F := Ideal) (V c main_v48) b) := by
  show (cfg3.win 2).cut (grid3.coords t) ((dat3 V c).after 2 t) = _
  rw [after3_2]
  unfold out3_2
  rw [View.canon_unit_zero hz]
  simp only [View.ld_unit_zero (S := S4000x1) hz, View.ld_unit_zero (S := S1x1) hz]
  obtain ⟨-, -, -, -, e4, e5⟩ := idx_facts t
  refine funext fun (j : S4000x1.Idx) => ?_
  obtain ⟨p, q, rfl⟩ : ∃ (p : Fin 4000) (q : Fin 1), j = ix2 p q := ⟨j 0, j 1, eq_ix2 j⟩
  have ht : t.val < 25 := t.isLt
  have hr : t.val * 4000 + p.val < 100000 := by omega
  have hemb : ((cfg3.win 2).blk t).view.emb (ix2 p q) = ix2 (⟨t.val * 4000 + p.val, hr⟩ : Fin 100000) q := by
    funext a
    apply Fin.ext
    match a with
    | ⟨0, _⟩ => show win3_2.index t (0 : Fin 2) * 4000 + 1 * p.val = t.val * 4000 + p.val; rw [e4]; omega
    | ⟨1, _⟩ => show win3_2.index t (1 : Fin 2) * 1 + 1 * q.val = q.val; rw [e5]; omega
  show k3_pay1 (F := Ideal) (xblk V c t) (bblk V c t) (ix2 p q)
    = Cert.RefStages.biasSigmoid (F := Ideal) (agg V c) b (((cfg3.win 2).blk t).view.emb (ix2 p q))
  rw [hemb, biasSigmoid_apply, pay_apply, xblk_apply V c t p q ⟨t.val * 4000 + p.val, hr⟩ rfl, bblk_apply V c t]
  show Ideal.logistic (_ + (V c main_v49 : FVec Ideal S1x1 .f32) (ix2 (0 : Fin 1) (0 : Fin 1))) = _
  rw [hb, shapeCast_apply b _ (ix2 (0 : Fin 1) (0 : Fin 1)) (ix1 (0 : Fin 1)) (by
    rw [Shape.rowMajor_val_two, Shape.rowMajor_val_one]; rfl), Ideal.ofBits_one_f32]
  rfl

/-- An index of the result array lies in point t's block iff, on each axis, it lies in the block's range. -/
theorem mem_blk (t : Fin cfg3.N) (i : S100000x1.Idx) :
    i ∈ ((cfg3.win 2).blk t).view.set ↔ ∀ a : Fin 2, win3_2.index t a * S4000x1.size a ≤ (i a).val
      ∧ (i a).val < win3_2.index t a * S4000x1.size a + S4000x1.size a := by
  show i ∈ ((View.whole main_v50).slice (win3_2.rect t)).set ↔ _
  rw [View.set_slice_whole, Rect.mem_set_unit]
  exact Iff.rfl

/-- Row r of the result lies in the block of point r / 4000, which is written back: the 25 blocks tile the array. -/
theorem cover (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have ht : (i 0).val / 4000 < 25 := by omega
  obtain ⟨-, -, -, -, e4, e5⟩ := idx_facts ⟨(i 0).val / 4000, ht⟩
  refine ⟨⟨(i 0).val / 4000, ht⟩, flush3_2 _, ?_⟩
  rw [mem_blk]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 1 ≤ (i 1).val
      ∧ (i 1).val < win3_2.index ⟨(i 0).val / 4000, ht⟩ (1 : Fin 2) * 1 + 1
    rw [e5]; omega

/-- After region 3 its result array is the sigmoid of agg + b, where the bias window's array is b as a [1, 1] array. -/
theorem value (c : Dev nD) (b : FVec Ideal S1 .f32)
    (hb : (V c main_v49 : FVec Ideal S1x1 .f32) = shapeCast S1x1 b Facts₀.shapeCasts_S1_S1x1) :
    (dat3 (F := Ideal) V c).arrAt 2 cfg3.N
      = Cert.RefStages.biasSigmoid (F := Ideal) (V c main_v48) b :=
  (dat3 (F := Ideal) V c).arrAt_eq_of_cover 2 (Cert.RefStages.biasSigmoid (F := Ideal) (V c main_v48) b)
    (fun t _ => flushed_eq V c b hb t) cover

end Cert.KernelIdeal.Region3

end
-- ==== Proof.Take.lean ====
/-
  Where every index lies in [-N, N), the take that guards against out-of-range indices is the plain gather: the index wrapped
  the NumPy way lies in [0, N-1], so the guard's test holds on every edge and the select never takes the fill.
-/
import proofs.«431462_j19842748907975_1_alg».proof.Proof.KSpec
import Idealize.ShloMosaic.Lib.StableHlo.Predicate
import Idealize.ShloMosaic.Lib.ValueIdx

set_option maxRecDepth 16384

noncomputable section

namespace Cert.KSpec

open Cert.KernelIdeal Cert.KernelIdeal.Facts₀ Idealize.ShloMosaic

variable {F : FTy → Type} [FloatOps F]

/-- A signed 32-bit word a in [-N, N), N = 100000, wrapped (N added where a is negative, by a signed compare with 0):
    the sum a + N does not wrap around, |a| being far below 2³¹, so the wrapped word's signed value is a + N ∈ [0, N-1]
    where a < 0, and a ∈ [0, N-1] itself otherwise. -/
theorem wrap_word (a : BitVec 32) (h0 : -100000 ≤ a.toInt) (h1 : a.toInt < 100000) :
    0 ≤ (Scalar.select (IntOp.cmpi .slt a 0#32) (IntOp.addi a 100000#32) a).toInt
      ∧ (Scalar.select (IntOp.cmpi .slt a 0#32) (IntOp.addi a 100000#32) a).toInt ≤ 99999 := by
  have hz : (0#32 : BitVec 32).toInt = 0 := by decide
  have hN : (100000#32 : BitVec 32).toInt = 100000 := by decide
  unfold Scalar.select IntOp.cmpi IntOp.addi
  by_cases hneg : a.toInt < 0
  · have hc : BitVec.ofBool (a.slt 0#32) = 1 := by
      rw [BitVec.slt_eq_decide, hz, decide_eq_true hneg]; rfl
    rw [if_pos hc, BitVec.toInt_add, hN, Int.bmod_eq_of_le_mul_two (by omega) (by omega)]
    omega
  · have hc : ¬ BitVec.ofBool (a.slt 0#32) = 1 := by
      rw [BitVec.slt_eq_decide, hz, decide_eq_false hneg]; decide
    rw [if_neg hc]
    omega

/-- The guard's two signed compares of a word whose signed value lies in [0, N-1]: both hold. -/
theorem guard_word (w : BitVec 32) (h0 : 0 ≤ w.toInt) (h1 : w.toInt ≤ 99999) :
    IntOp.andi (IntOp.cmpi .sge w 0#32) (IntOp.cmpi .sle w 99999#32) = 1#1 := by
  have hz : (0#32 : BitVec 32).toInt = 0 := by decide
  have hN : (99999#32 : BitVec 32).toInt = 99999 := by decide
  have e0 : (0#32 : BitVec 32).sle w = true := by rw [BitVec.sle_eq_decide, hz]; exact decide_eq_true h0
  have e1 : w.sle 99999#32 = true := by rw [BitVec.sle_eq_decide, hN]; exact decide_eq_true h1
  show IntOp.andi (BitVec.ofBool ((0#32 : BitVec 32).sle w)) (BitVec.ofBool (w.sle 99999#32)) = 1#1
  rw [e0, e1]
  decide

/-- A reduction by `and` from 1 of a mask that is 1 at every index is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a]
    exact ih

/-- The guard's test holds on every edge once the indices are valid. -/
theorem inRange_eq_ones (i : IVec S1700000 32) (hi : InRange i) : inRange i = fun _ => 1#1 := by
  funext e
  unfold inRange
  refine reduce_andi_ones _ _ _ _ (fun j => ?_) rfl e
  -- at row (j 0) of the [E', 1] column both compares read the wrapped index of edge (j 0), and the constants 0 and N-1
  obtain ⟨h0, h1⟩ := hi (fun a => if h1 : S1700000.size a = 1 then ⟨0, by omega⟩ else ⟨(j ((![0] : Fin 1 → Fin 2) a)).val, by
      rcases bcast_S1700000_S1700000x1_0.2 a with h2 | h2
      · exact absurd h2 h1
      · rw [h2]; exact (j _).isLt⟩)
  obtain ⟨hw0, hw1⟩ := wrap_word _ h0 h1
  exact guard_word _ hw0 hw1

theorem take128_eq_gather (x : FVec F S100000x128 .f32) (i : IVec S1700000 32) (hi : InRange i) :
    take128 x i = gather128 x i := by
  unfold take128 gather128
  rw [inRange_eq_ones i hi]
  funext j
  exact ValueIdx.select_one _ _

theorem take1_eq_gather (x : FVec F S100000x1 .f32) (i : IVec S1700000 32) (hi : InRange i) :
    take1 x i = gather1 x i := by
  unfold take1 gather1
  rw [inRange_eq_ones i hi]
  funext j
  exact ValueIdx.select_one _ _

end Cert.KSpec

end
-- ==== Proof.RSpec.lean ====
/-
  The reference program's result as a composition of small named functions, each spelt as the program spells it. From the
  [2, E] edge table and the E edge weights: the source and target rows with the N self-loops appended, the weights with N
  ones appended, the weighted in-degree deg[n] = Σ_{col[e] = n} ew[e], its inverse square root where the degree is positive
  (else 0), and the symmetric normalisation norm[e] = dinv[row[e]] · ew[e] · dinv[col[e]] (indices wrapped the NumPy way).
  A layer aggregates agg[n, :] = Σ_{col[e] = n} norm[e] · h[row[e], :] over the table h = x · W. The result is
  sigmoid(agg₂ + b₂) over h₂ = relu(agg₁ + b₁) · W₂, as one vector.
-/
import proofs.«431462_j19842748907975_1_alg».proof.Proof.RefStages

noncomputable section

namespace Cert.RSpec

open Cert.ReferenceIdeal Cert.ReferenceIdeal.Facts₀ Idealize.ShloMosaic

variable {F : FTy → Type} [FloatOps F]

/-- The source nodes: row 0 of the edge table, then 0 … N-1. -/
def row (a0 : IVec S2x1600000 32) : IVec S1700000 32 :=
  concatenate S1700000 0 [⟨S1600000, shapeCast _ (extractStridedSlice S1x1600000 ![0, 0] a0 slices_S2x1600000_S1x1600000_0_0) shapeCasts_S1x1600000_S1600000⟩, ⟨S100000, iotaInDim S100000 32 0⟩] concatenates_S1600000_S100000_S1700000_d0

/-- The target nodes: row 1 of the edge table, then 0 … N-1. -/
def col (a0 : IVec S2x1600000 32) : IVec S1700000 32 :=
  concatenate S1700000 0 [⟨S1600000, shapeCast _ (extractStridedSlice S1x1600000 ![1, 0] a0 slices_S2x1600000_S1x1600000_1_0) shapeCasts_S1x1600000_S1600000⟩, ⟨S100000, iotaInDim S100000 32 0⟩] concatenates_S1600000_S100000_S1700000_d0

/-- The edge weights, then N ones for the self-loops. -/
def ew (a1 : FVec F S1600000 .f32) : FVec F S1700000 .f32 :=
  concatenate S1700000 0 [⟨S1600000, a1⟩, ⟨S100000, broadcastInDim S100000 ![] bcast_S_S100000 (constant S_ .f32 0x3F800000#32)⟩] concatenates_S1600000_S100000_S1700000_d0

/-- An index wrapped the NumPy way: i + N where i is negative, else i. -/
def wrap (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- A vector of indices, and a vector of values, as an [E', 1] column. -/
def icol (i : IVec S1700000 32) : IVec S1700000x1 32 := broadcastInDim S1700000x1 ![0] bcast_S1700000_S1700000x1_0 i
def fcol (v : FVec F S1700000 .f32) : FVec F S1700000x1 .f32 := broadcastInDim S1700000x1 ![0] bcast_S1700000_S1700000x1_0 v

/-- The weighted in-degree. -/
def deg (a0 : IVec S2x1600000 32) (a1 : FVec F S1600000 .f32) : FVec F S100000 .f32 :=
  Host.scatterAdd scatter_S100000_S1700000x1_S1700000_n_0_0_1 (broadcastInDim S100000 ![] bcast_S_S100000 (constant S_ .f32 0x00000000#32)) (icol (col a0)) (ew a1)

/-- deg^(-1/2) where the degree is positive, else 0. -/
def dinv (a0 : IVec S2x1600000 32) (a1 : FVec F S1600000 .f32) : FVec F S100000 .f32 :=
  select (cmpf .ogt (deg a0 a1) (broadcastInDim S100000 ![] bcast_S_S100000 (constant S_ .f32 0x00000000#32))) (Host.rsqrt (deg a0 a1))
    (broadcastInDim S100000 ![] bcast_S_S100000 (id (constant S_ .f32 0x00000000#32)))

/-- dinv[row] · ew · dinv[col]. -/
def norm (a0 : IVec S2x1600000 32) (a1 : FVec F S1600000 .f32) : FVec F S1700000 .f32 :=
  mulf (mulf (Host.gather gather_S100000_S1700000x1_S1700000_n_0_n_n_0_1_1 (dinv a0 a1) (icol (wrap (row a0)))) (ew a1))
    (Host.gather gather_S100000_S1700000x1_S1700000_n_0_n_n_0_1_1 (dinv a0 a1) (icol (wrap (col a0))))

/-- Rows of a table at the wrapped source nodes. -/
def rows128 (h : FVec F S100000x128 .f32) (i : IVec S1700000 32) : FVec F S1700000x128 .f32 :=
  Host.gather gather_S100000x128_S1700000x1_S1700000x128_1_0_n_n_0_1_1128 h (icol (wrap i))
def rows1 (h : FVec F S100000x1 .f32) (i : IVec S1700000 32) : FVec F S1700000x1 .f32 :=
  Host.gather gather_S100000x1_S1700000x1_S1700000x1_1_0_n_n_0_1_11 h (icol (wrap i))

/-- The messages norm[e] · g[e, :] summed into their target nodes, for messages of 128 columns and of one. -/
def scatter128 (cl : IVec S1700000 32) (nrm : FVec F S1700000 .f32) (g : FVec F S1700000x128 .f32) : FVec F S100000x128 .f32 :=
  Host.scatterAdd scatter_S100000x128_S1700000x1_S1700000x128_1_0_0_1 (broadcastInDim S100000x128 ![] bcast_S_S100000x128 (constant S_ .f32 0x00000000#32)) (icol cl)
    (mulf (broadcastInDim S1700000x128 ![0, 1] bcast_S1700000x1_S1700000x128_0_1 (fcol nrm)) g)
def scatter1 (cl : IVec S1700000 32) (nrm : FVec F S1700000 .f32) (g : FVec F S1700000x1 .f32) : FVec F S100000x1 .f32 :=
  Host.scatterAdd scatter_S100000x1_S1700000x1_S1700000x1_1_0_0_1 (broadcastInDim S100000x1 ![] bcast_S_S100000x1 (constant S_ .f32 0x00000000#32)) (icol cl)
    (mulf (fcol nrm) g)

/-- The whole result. -/
def out (a0 : IVec S2x1600000 32) (a1 : FVec F S1600000 .f32) (a2 : FVec F S100000x256 .f32) (a3 : FVec F S256x128 .f32)
    (a4 : FVec F S128 .f32) (a5 : FVec F S128x1 .f32) (a6 : FVec F S1 .f32) : FVec F S100000 .f32 :=
  shapeCast _ (Cert.RefStages.biasSigmoid
      (scatter1 (col a0) (norm a0 a1) (rows1 (Cert.RefStages.mm2 (Cert.RefStages.biasRelu
        (scatter128 (col a0) (norm a0 a1) (rows128 (Cert.RefStages.mm1 a2 a3) (row a0))) a4) a5) (row a0))) a6)
    shapeCasts_S100000x1_S100000

end Cert.RSpec

end
-- ==== Proof.KREq.lean ====
/-
  The kernel program and the reference name the same operations in two vocabularies (each program states its own shape
  facts); function by function the two namings are one function.
-/
import proofs.«431462_j19842748907975_1_alg».proof.Proof.KSpec2
import proofs.«431462_j19842748907975_1_alg».proof.Proof.RSpec

set_option maxRecDepth 16384

noncomputable section

namespace Cert.KREq

open Idealize.ShloMosaic

variable {F : FTy → Type} [FloatOps F]

theorem row_eq (a0 : IVec Cert.KernelIdeal.S2x1600000 32) : Cert.KSpec.rowK a0 = Cert.RSpec.row a0 := rfl
theorem col_eq (a0 : IVec Cert.KernelIdeal.S2x1600000 32) : Cert.KSpec.colK a0 = Cert.RSpec.col a0 := rfl
theorem wrap_eq (i : IVec Cert.KernelIdeal.S1700000 32) : Cert.KSpec.wrapIdx i = Cert.RSpec.wrap i := rfl
theorem icol_eq (i : IVec Cert.KernelIdeal.S1700000 32) : Cert.KSpec.colIdx i = Cert.RSpec.icol i := rfl
theorem ew_eq (a1 : FVec F Cert.KernelIdeal.S1600000 .f32) : Cert.KSpec.ewK a1 = Cert.RSpec.ew a1 := rfl
theorem norm_eq (a0 : IVec Cert.KernelIdeal.S2x1600000 32) (a1 : FVec F Cert.KernelIdeal.S1600000 .f32) :
    Cert.KSpec.normK a0 a1 = Cert.RSpec.norm a0 a1 := rfl
theorem gather128_eq (x : FVec F Cert.KernelIdeal.S100000x128 .f32) (i : IVec Cert.KernelIdeal.S1700000 32) :
    Cert.KSpec.gather128 x i = Cert.RSpec.rows128 x i := rfl
theorem gather1_eq (x : FVec F Cert.KernelIdeal.S100000x1 .f32) (i : IVec Cert.KernelIdeal.S1700000 32) :
    Cert.KSpec.gather1 x i = Cert.RSpec.rows1 x i := rfl
theorem scatter128_eq (cl : IVec Cert.KernelIdeal.S1700000 32) (nrm : FVec F Cert.KernelIdeal.S1700000 .f32) (g : FVec F Cert.KernelIdeal.S1700000x128 .f32) :
    Cert.KSpec.scatter128K cl nrm g = Cert.RSpec.scatter128 cl nrm g := rfl
theorem scatter1_eq (cl : IVec Cert.KernelIdeal.S1700000 32) (nrm : FVec F Cert.KernelIdeal.S1700000 .f32) (g : FVec F Cert.KernelIdeal.S1700000x1 .f32) :
    Cert.KSpec.scatter1K cl nrm g = Cert.RSpec.scatter1 cl nrm g := rfl

end Cert.KREq

end
-- ==== Proof.Chain.lean ====
/-
  The kernel program's result as a function of the launch arrays. Boundary by boundary: the first region leaves x · W₁; the
  host stretch after it sums the messages norm[e] · take(x · W₁, row)[e, :] into their target nodes; the second region adds
  the bias and takes the positive part; the third multiplies by W₂; the next stretch aggregates again; the fourth adds the
  bias and applies the sigmoid; the last operation lays the [N, 1] result out as a vector. Where every source index lies in
  [-N, N) each take is the plain gather, and the whole is the reference's composition `RSpec.out`.
-/
import proofs.«431462_j19842748907975_1_alg».proof.Proof.ChainA
import proofs.«431462_j19842748907975_1_alg».proof.Proof.ChainB
import proofs.«431462_j19842748907975_1_alg».proof.Proof.ChainC
import proofs.«431462_j19842748907975_1_alg».proof.Proof.Region0
import proofs.«431462_j19842748907975_1_alg».proof.Proof.Region1
import proofs.«431462_j19842748907975_1_alg».proof.Proof.Region2
import proofs.«431462_j19842748907975_1_alg».proof.Proof.Region3
import proofs.«431462_j19842748907975_1_alg».proof.Proof.Take
import proofs.«431462_j19842748907975_1_alg».proof.Proof.KREq

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region leaves, and what passes it untouched -/

theorem W4_h (c : Dev nD) : W4 m ρ c (Proc.devRef .tc main_v32) = Cert.RefStages.mm1 (F := Ideal) (m ((c.tc : Thread nD τ).loc main_arg2)) (m ((c.tc : Thread nD τ).loc main_arg3)) := by
  refine (W4_arr m ρ c 2).trans ?_
  rw [Cert.KernelIdeal.Region0.value (V3 m ρ) c]
  show Cert.RefStages.mm1 (F := Ideal) (W3 m ρ c (Proc.devRef .tc main_arg2)) (W3 m ρ c (Proc.devRef .tc main_arg3)) = _
  rw [Cert.KernelIdeal.ChainA.W3_arg2, Cert.KernelIdeal.ChainA.W3_arg3]

theorem W4_row (c : Dev nD) : W4 m ρ c (Proc.devRef .tc main_v3) = Cert.KSpec.rowK (m ((c.tc : Thread nD τ).loc main_arg0)) :=
  (W4_of_ne m ρ c main_v3 (by decide)).trans (Cert.KernelIdeal.ChainA.W3_row m ρ c)
theorem W4_col (c : Dev nD) : W4 m ρ c (Proc.devRef .tc main_v6) = Cert.KSpec.colK (m ((c.tc : Thread nD τ).loc main_arg0)) :=
  (W4_of_ne m ρ c main_v6 (by decide)).trans (Cert.KernelIdeal.ChainA.W3_col m ρ c)
theorem W4_norm (c : Dev nD) : W4 m ρ c (Proc.devRef .tc main_v31) = Cert.KSpec.normK (F := Ideal) (m ((c.tc : Thread nD τ).loc main_arg0)) (m ((c.tc : Thread nD τ).loc main_arg1)) :=
  (W4_of_ne m ρ c main_v31 (by decide)).trans (Cert.KernelIdeal.ChainA.W3_norm m ρ c)
theorem W4_arg4 (c : Dev nD) : W4 m ρ c (Proc.devRef .tc main_arg4) = (m ((c.tc : Thread nD τ).loc main_arg4)) :=
  (W4_of_ne m ρ c main_arg4 (by decide)).trans (Cert.KernelIdeal.ChainA.W3_arg4 m ρ c)
theorem W4_arg5 (c : Dev nD) : W4 m ρ c (Proc.devRef .tc main_arg5) = (m ((c.tc : Thread nD τ).loc main_arg5)) :=
  (W4_of_ne m ρ c main_arg5 (by decide)).trans (Cert.KernelIdeal.ChainA.W3_arg5 m ρ c)
theorem W4_arg6 (c : Dev nD) : W4 m ρ c (Proc.devRef .tc main_arg6) = (m ((c.tc : Thread nD τ).loc main_arg6)) :=
  (W4_of_ne m ρ c main_arg6 (by decide)).trans (Cert.KernelIdeal.ChainA.W3_arg6 m ρ c)

/-! ## The first layer -/

/-- The first layer's aggregate of the taken rows of x · W₁. -/
abbrev agg1 (c : Dev nD) : FVec Ideal S100000x128 .f32 :=
  Cert.KSpec.scatter128K (F := Ideal) (Cert.KSpec.colK (m ((c.tc : Thread nD τ).loc main_arg0))) (Cert.KSpec.normK (F := Ideal) (m ((c.tc : Thread nD τ).loc main_arg0)) (m ((c.tc : Thread nD τ).loc main_arg1)))
    (Cert.KSpec.take128 (F := Ideal) (Cert.RefStages.mm1 (F := Ideal) (m ((c.tc : Thread nD τ).loc main_arg2)) (m ((c.tc : Thread nD τ).loc main_arg3))) (Cert.KSpec.rowK (m ((c.tc : Thread nD τ).loc main_arg0))))

theorem W7_agg (c : Dev nD) : W7 m ρ c (Proc.devRef .tc main_v39) = agg1 m c := by
  rw [Cert.KernelIdeal.ChainB.W7_agg, W4_col, W4_norm, W4_h, W4_row]

theorem W7_bias (c : Dev nD) : W7 m ρ c (Proc.devRef .tc main_v40) = shapeCast S1x128 (m ((c.tc : Thread nD τ).loc main_arg4)) Facts₀.shapeCasts_S128_S1x128 := by
  rw [Cert.KernelIdeal.ChainB.W7_bias, W4_arg4]

/-- The hidden layer relu(agg₁ + b₁), as the second region leaves it. -/
abbrev hid (c : Dev nD) : FVec Ideal S100000x128 .f32 := Cert.RefStages.biasRelu (F := Ideal) (agg1 m c) (m ((c.tc : Thread nD τ).loc main_arg4))

theorem W8_hid (c : Dev nD) : W8 m ρ c (Proc.devRef .tc main_v41) = hid m c := by
  refine (W8_arr m ρ c 2).trans ?_
  rw [Cert.KernelIdeal.Region1.value (V7 m ρ) c (m ((c.tc : Thread nD τ).loc main_arg4)) (W7_bias m ρ c)]
  show Cert.RefStages.biasRelu (F := Ideal) (W7 m ρ c (Proc.devRef .tc main_v39)) _ = _
  rw [W7_agg]

theorem W8_row (c : Dev nD) : W8 m ρ c (Proc.devRef .tc main_v3) = Cert.KSpec.rowK (m ((c.tc : Thread nD τ).loc main_arg0)) :=
  (W8_of_ne m ρ c main_v3 (by decide)).trans ((Cert.KernelIdeal.ChainB.W7_v3 m ρ c).trans (W4_row m ρ c))
theorem W8_col (c : Dev nD) : W8 m ρ c (Proc.devRef .tc main_v6) = Cert.KSpec.colK (m ((c.tc : Thread nD τ).loc main_arg0)) :=
  (W8_of_ne m ρ c main_v6 (by decide)).trans ((Cert.KernelIdeal.ChainB.W7_v6 m ρ c).trans (W4_col m ρ c))
theorem W8_norm (c : Dev nD) : W8 m ρ c (Proc.devRef .tc main_v31) = Cert.KSpec.normK (F := Ideal) (m ((c.tc : Thread nD τ).loc main_arg0)) (m ((c.tc : Thread nD τ).loc main_arg1)) :=
  (W8_of_ne m ρ c main_v31 (by decide)).trans ((Cert.KernelIdeal.ChainB.W7_v31 m ρ c).trans (W4_norm m ρ c))
theorem W8_arg5 (c : Dev nD) : W8 m ρ c (Proc.devRef .tc main_arg5) = (m ((c.tc : Thread nD τ).loc main_arg5)) :=
  (W8_of_ne m ρ c main_arg5 (by decide)).trans ((Cert.KernelIdeal.ChainB.W7_arg5 m ρ c).trans (W4_arg5 m ρ c))
theorem W8_arg6 (c : Dev nD) : W8 m ρ c (Proc.devRef .tc main_arg6) = (m ((c.tc : Thread nD τ).loc main_arg6)) :=
  (W8_of_ne m ρ c main_arg6 (by decide)).trans ((Cert.KernelIdeal.ChainB.W7_arg6 m ρ c).trans (W4_arg6 m ρ c))

/-! ## The second layer -/

/-- The second layer's table relu(agg₁ + b₁) · W₂, as the third region leaves it. -/
abbrev h2 (c : Dev nD) : FVec Ideal S100000x1 .f32 := Cert.RefStages.mm2 (F := Ideal) (hid m c) (m ((c.tc : Thread nD τ).loc main_arg5))

theorem W9_h2 (c : Dev nD) : W9 m ρ c (Proc.devRef .tc main_v42) = h2 m c := by
  refine (W9_arr m ρ c 2).trans ?_
  rw [Cert.KernelIdeal.Region2.value (V8 m ρ) c]
  show Cert.RefStages.mm2 (F := Ideal) (W8 m ρ c (Proc.devRef .tc main_v41)) (W8 m ρ c (Proc.devRef .tc main_arg5)) = _
  rw [W8_hid, W8_arg5]

theorem W9_row (c : Dev nD) : W9 m ρ c (Proc.devRef .tc main_v3) = Cert.KSpec.rowK (m ((c.tc : Thread nD τ).loc main_arg0)) :=
  (W9_of_ne m ρ c main_v3 (by decide)).trans (W8_row m ρ c)
theorem W9_col (c : Dev nD) : W9 m ρ c (Proc.devRef .tc main_v6) = Cert.KSpec.colK (m ((c.tc : Thread nD τ).loc main_arg0)) :=
  (W9_of_ne m ρ c main_v6 (by decide)).trans (W8_col m ρ c)
theorem W9_norm (c : Dev nD) : W9 m ρ c (Proc.devRef .tc main_v31) = Cert.KSpec.normK (F := Ideal) (m ((c.tc : Thread nD τ).loc main_arg0)) (m ((c.tc : Thread nD τ).loc main_arg1)) :=
  (W9_of_ne m ρ c main_v31 (by decide)).trans (W8_norm m ρ c)
theorem W9_arg6 (c : Dev nD) : W9 m ρ c (Proc.devRef .tc main_arg6) = (m ((c.tc : Thread nD τ).loc main_arg6)) :=
  (W9_of_ne m ρ c main_arg6 (by decide)).trans (W8_arg6 m ρ c)

/-- The second layer's aggregate of the taken entries of the table. -/
abbrev agg2 (c : Dev nD) : FVec Ideal S100000x1 .f32 :=
  Cert.KSpec.scatter1K (F := Ideal) (Cert.KSpec.colK (m ((c.tc : Thread nD τ).loc main_arg0))) (Cert.KSpec.normK (F := Ideal) (m ((c.tc : Thread nD τ).loc main_arg0)) (m ((c.tc : Thread nD τ).loc main_arg1)))
    (Cert.KSpec.take1 (F := Ideal) (h2 m c) (Cert.KSpec.rowK (m ((c.tc : Thread nD τ).loc main_arg0))))

theorem W12_agg (c : Dev nD) : W12 m ρ c (Proc.devRef .tc main_v48) = agg2 m c := by
  rw [Cert.KernelIdeal.ChainC.W12_agg, W9_col, W9_norm, W9_h2, W9_row]

theorem W12_bias (c : Dev nD) : W12 m ρ c (Proc.devRef .tc main_v49) = shapeCast S1x1 (m ((c.tc : Thread nD τ).loc main_arg6)) Facts₀.shapeCasts_S1_S1x1 := by
  rw [Cert.KernelIdeal.ChainC.W12_bias, W9_arg6]

theorem W13_out (c : Dev nD) : W13 m ρ c (Proc.devRef .tc main_v50) = Cert.RefStages.biasSigmoid (F := Ideal) (agg2 m c) (m ((c.tc : Thread nD τ).loc main_arg6)) := by
  refine (W13_arr m ρ c 2).trans ?_
  rw [Cert.KernelIdeal.Region3.value (V12 m ρ) c (m ((c.tc : Thread nD τ).loc main_arg6)) (W12_bias m ρ c)]
  show Cert.RefStages.biasSigmoid (F := Ideal) (W12 m ρ c (Proc.devRef .tc main_v48)) _ = _
  rw [W12_agg]

/-! ## The result -/

/-- The kernel program's result array, where every source index is a valid index of an axis of extent N, is the
    reference's composition of the launch arrays. -/
theorem result (c : Dev nD) (hrow : Cert.KSpec.InRange (Cert.KSpec.rowK (m ((c.tc : Thread nD τ).loc main_arg0)))) :
    W14 m ρ c (Proc.devRef .tc main_v51)
      = Cert.RSpec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.ChainC.W14_out, W13_out]
  unfold agg2 h2 hid agg1
  rw [Cert.KSpec.take128_eq_gather _ _ hrow, Cert.KSpec.take1_eq_gather _ _ hrow]
  rfl

end Cert.KernelIdeal.Chain

end
-- ==== Proof.RefSide.lean ====
/-
  The reference side of the value claim: what the reference program's run leaves in its result array. The generated run
  states it as the operations' composed term of the argument arrays; that term is the composition of named functions
  `RSpec.out` (the same operations, the repeated sub-terms named once).
-/
import proofs.«431462_j19842748907975_1_alg».proof.Defs
import proofs.«431462_j19842748907975_1_alg».proof.Proof.Gen.ReferenceIdeal.Run
import proofs.«431462_j19842748907975_1_alg».proof.Proof.RSpec

set_option maxRecDepth 16384

noncomputable section

namespace Cert.ReferenceIdeal.RefSide

open Cert.ReferenceIdeal Idealize.ShloMosaic Idealize.ShloMosaic.TcCoe Idealize.SL.Sem

set_option maxHeartbeats 4000000 in
/-- The reference's result term is `RSpec.out` of the argument arrays. -/
theorem res_eq (m : (ℓ : Loc nD τ sig) → Buf (Elt Ideal) ℓ) (c : Dev nD) :
    Cert.ReferenceIdeal.Value.res_main_v95 (F := Ideal) m c
      = Cert.RSpec.out (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v95
  rfl

end Cert.ReferenceIdeal.RefSide

end
-- ==== Proof.PreDecode.lean ====
/-
  What the precondition says of the source-node indices: every entry of row 0 of the edge table lies in [-N, N), read off
  the printed predicate's two signed compares; the appended self-loops 0 … N-1 lie there by themselves.
-/
import proofs.«431462_j19842748907975_1_alg».proof.Defs
import proofs.«431462_j19842748907975_1_alg».proof.Proof.Gen.Pre_finite_inputs
import proofs.«431462_j19842748907975_1_alg».proof.Proof.KSpec
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.PreDecode

open Idealize.ShloMosaic Idealize.SL.Sem
open Cert.KernelIdeal Cert.KernelIdeal.Facts₀

/-- The scalar shape has one index. -/
local instance subsingleton_scalar_idx : Subsingleton (⟨0, ![]⟩ : Shape).Idx := ⟨fun a b => funext fun d => d.elim0⟩

/-- Row 0 of the [2, E] edge table as a vector of E entries. -/
def row0 (a0 : IVec S2x1600000 32) : IVec S1600000 32 :=
  shapeCast _ (extractStridedSlice S1x1600000 ![0, 0] a0 slices_S2x1600000_S1x1600000_0_0) shapeCasts_S1x1600000_S1600000

/-- The signed compare "a ≥ -N" read back: the word 2³² - N is -N read signed. -/
theorem sge_word (a : BitVec 32) (h : IntOp.cmpi .sge a 4294867296#32 = 1#1) : -100000 ≤ a.toInt := by
  have hN : (4294867296#32 : BitVec 32).toInt = -100000 := by decide
  have h' : BitVec.ofBool ((4294867296#32 : BitVec 32).sle a) = 1#1 := h
  rw [StableHlo.Predicate.ofBool_eq_one_iff, BitVec.sle_eq_decide, hN, decide_eq_true_eq] at h'
  exact h'

/-- The signed compare "a < N" read back. -/
theorem slt_word (a : BitVec 32) (h : IntOp.cmpi .slt a 100000#32 = 1#1) : a.toInt < 100000 := by
  have hN : (100000#32 : BitVec 32).toInt = 100000 := by decide
  have h' : BitVec.ofBool (a.slt 100000#32) = 1#1 := h
  rw [StableHlo.Predicate.ofBool_eq_one_iff, BitVec.slt_eq_decide, hN, decide_eq_true_eq] at h'
  exact h'

/-- THE PRECONDITION DECODED. The printed predicate is a chain of `and`s of eight all-reductions; its last two are the
    all-reductions of "row 0 ≥ -N" and "row 0 < N" (signed) over the E entries of row 0: so each entry lies in [-N, N). -/
theorem row0_of_pre (hF : Cert.Pre_finite_inputs.Facts)
    (m : (ℓ : Loc Cert.KernelIdeal.nD Cert.KernelIdeal.τ Cert.KernelIdeal.sig) → Buf (Elt Ideal) ℓ)
    (hpre : Cert.Pre_KernelIdeal (hPre_finite_inputs := hF) m) (c : Dev Cert.KernelIdeal.nD) (i : S1600000.Idx) :
    -100000 ≤ (row0 (m ((c.tc : Thread Cert.KernelIdeal.nD Cert.KernelIdeal.τ).loc Cert.KernelIdeal.main_arg0)) i).toInt
      ∧ (row0 (m ((c.tc : Thread Cert.KernelIdeal.nD Cert.KernelIdeal.τ).loc Cert.KernelIdeal.main_arg0)) i).toInt < 100000 := by
  have h := congrFun (hpre c) ValueIdx.ix0
  obtain ⟨h34, h39⟩ := IntOp.andi_eq_one.1 h
  obtain ⟨-, h33⟩ := IntOp.andi_eq_one.1 h34
  exact ⟨sge_word _ (Host.reduce_andi_all _ _ _ _ _ h33 i), slt_word _ (Host.reduce_andi_all _ _ _ _ _ h39 i)⟩

/-- The source-node vector is row 0 followed by the self-loops 0 … N-1: where row 0's entries lie in [-N, N) so do all of
    its E + N entries, an index e ≥ E reading the word of e - E ∈ [0, N-1]. -/
theorem rowK_inRange (a0 : IVec S2x1600000 32)
    (h : ∀ i : S1600000.Idx, -100000 ≤ (row0 a0 i).toInt ∧ (row0 a0 i).toInt < 100000) :
    Cert.KSpec.InRange (Cert.KSpec.rowK a0) := by
  intro e
  have he : (e 0).val < 1700000 := (e 0).isLt
  show -100000 ≤ (concatenate S1700000 0 [⟨S1600000, row0 a0⟩, ⟨S100000, iotaInDim S100000 32 0⟩]
        concatenates_S1600000_S100000_S1700000_d0 e).toInt
      ∧ (concatenate S1700000 0 [⟨S1600000, row0 a0⟩, ⟨S100000, iotaInDim S100000 32 0⟩]
        concatenates_S1600000_S100000_S1700000_d0 e).toInt < 100000
  by_cases hlt : (e 0).val < 1600000
  · rw [concatenate_pair_apply_left _ (row0 a0) (iotaInDim S100000 32 0) concatenates_S1600000_S100000_S1700000_d0 e rfl
      (ValueIdx.ix1 ⟨(e 0).val, hlt⟩) (fun b => match b with | ⟨0, _⟩ => rfl)]
    exact h _
  · rw [concatenate_pair_apply_right _ (row0 a0) (iotaInDim S100000 32 0) concatenates_S1600000_S100000_S1700000_d0 e rfl rfl
      (ValueIdx.ix1 ⟨(e 0).val - 1600000, by omega⟩) (fun b hb => absurd (Subsingleton.elim _ _) hb)
      (show (e 0).val - 1600000 + 1600000 = (e 0).val by omega)]
    show -100000 ≤ (BitVec.ofNat 32 ((e 0).val - 1600000)).toInt ∧ (BitVec.ofNat 32 ((e 0).val - 1600000)).toInt < 100000
    rw [StableHlo.Predicate.toInt_ofNat_small _ (by omega)]
    omega

/-- Under the precondition the source-node indices, self-loops included, are valid indices of an axis of extent N. -/
theorem row_inRange (hF : Cert.Pre_finite_inputs.Facts)
    (m : (ℓ : Loc Cert.KernelIdeal.nD Cert.KernelIdeal.τ Cert.KernelIdeal.sig) → Buf (Elt Ideal) ℓ)
    (hpre : Cert.Pre_KernelIdeal (hPre_finite_inputs := hF) m) (c : Dev Cert.KernelIdeal.nD) :
    Cert.KSpec.InRange (Cert.KSpec.rowK (m ((c.tc : Thread Cert.KernelIdeal.nD Cert.KernelIdeal.τ).loc Cert.KernelIdeal.main_arg0))) :=
  rowK_inRange _ (row0_of_pre hF m hpre c)

end Cert.PreDecode

end
-- ==== Proof.lean ====
/-
  The certificate of a two-layer graph convolution: a program of four tiled kernel regions (x · W₁; bias and relu;
  h · W₂; bias and sigmoid) among host operations that build the symmetric normalisation and do the gather and the
  scatter-add, against the plain reference.

  With row and col the source and target nodes of the E edges followed by the N self-loops, ew the edge weights followed
  by N ones, deg[n] = Σ_{col[e] = n} ew[e], dinv = deg^(-1/2) where deg > 0 and 0 elsewhere, and
  norm[e] = dinv[row[e]] · ew[e] · dinv[col[e]], a layer maps a table h to
      agg[n, :] = Σ_{col[e] = n} norm[e] · h[row[e], :],
  and the result is sigmoid(agg(relu(agg(x · W₁) + b₁) · W₂) + b₂), one value per node.

  Over the extended reals the two programs agree operation by operation except at ONE place: the reference reads
  h[row[e]] by a gather that clamps an out-of-range index into [0, N-1], while the kernel program's take fills such a row
  with a NaN pattern. The two readings agree exactly where the wrapped index lies in [0, N-1], that is where
  -N ≤ row[e] < N: the precondition says so of the edge table's source row (the self-loops 0 … N-1 lie there by
  themselves), and it is the only part of the precondition the proof uses. Everything else is an identity of the
  extended reals: a change of float format is the identity, a matrix product accumulated into zero is the plain sum over
  the contracted axis, the 25 blocks of 4000 rows tile the N = 100000 rows, relu is a maximum on both sides, and the
  kernel's logistic IS 1 / (1 + exp(-v)).

  The three frames: the two kernel programs' are generated whole; the reference's is its generated run with the result
  dropped. The idealization rewrote no operation, so `preserves` is trivial.
-/
import proofs.«431462_j19842748907975_1_alg».proof.Defs
import proofs.«431462_j19842748907975_1_alg».proof.Proof.Gen.Kernel
import proofs.«431462_j19842748907975_1_alg».proof.Proof.Gen.Kernel.Skeleton
import proofs.«431462_j19842748907975_1_alg».proof.Proof.Gen.Kernel.Launch
import proofs.«431462_j19842748907975_1_alg».proof.Proof.Gen.Kernel.Points
import proofs.«431462_j19842748907975_1_alg».proof.Proof.Gen.Kernel.Frame
import proofs.«431462_j19842748907975_1_alg».proof.Proof.Gen.KernelIdeal
import proofs.«431462_j19842748907975_1_alg».proof.Proof.Gen.KernelIdeal.Skeleton
import proofs.«431462_j19842748907975_1_alg».proof.Proof.Gen.KernelIdeal.Launch
import proofs.«431462_j19842748907975_1_alg».proof.Proof.Gen.KernelIdeal.Points
import proofs.«431462_j19842748907975_1_alg».proof.Proof.Gen.KernelIdeal.Frame
import proofs.«431462_j19842748907975_1_alg».proof.Proof.Gen.ReferenceIdeal
import proofs.«431462_j19842748907975_1_alg».proof.Proof.Gen.ReferenceIdeal.Run
import proofs.«431462_j19842748907975_1_alg».proof.Proof.Gen.Pre_finite_inputs
import proofs.«431462_j19842748907975_1_alg».proof.Proof.KernelRun
import proofs.«431462_j19842748907975_1_alg».proof.Proof.Chain
import proofs.«431462_j19842748907975_1_alg».proof.Proof.RefSide
import proofs.«431462_j19842748907975_1_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the reference's composition `RSpec.out` of the (agreeing) argument arrays: the
    kernel program by its run with the result named and the chain through its regions and host operations, under the
    source rows' range read off the precondition; the reference by its generated run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RSpec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KernelRun.run_named (F := Ideal) m ρ)
    exact Cert.KernelIdeal.Chain.result m ρ c (Cert.PreDecode.row_inRange Cert.Pre_finite_inputs.Gen.facts m hpre c)
  · refine (θ_run Cert.ReferenceIdeal.defs _ _).mono (fun r h c => ⟨(h c).1.trans ?_, (h c).2⟩)
      (Cert.ReferenceIdeal.Value.run (F := Ideal) m' ρ')
    rw [Cert.ReferenceIdeal.RefSide.res_eq m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
